-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S2x640000 : Shape := ⟨2, ![2, 640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part6 {F : FTy → Type} [FloatOps F] (main_arg2 : IVec S2x640000 32) (main_arg22 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S2x640000 32 := broadcastInDim S2x640000 ![] bcast_S_S2x640000 main_c_42
  let main_v110 : IVec S2x640000 1 := cmpi .sge main_arg2 main_v109
  let main_c_43 : IVec S_ 1 := constantI S_ 1 1#1
  let main_v111 : IVec S_ 1 := (fun x v => Host.reduce IntOp.andi x v reducesTo_S2x640000_S_d0_1 h_S_) main_v110 main_c_43
  let main_v112 : IVec S_ 1 := andi main_v108 main_v111
  let main_c_44 : IVec S_ 32 := constantI S_ 32 50000#32
  let main_v113 : IVec S2x640000 32 := broadcastInDim S2x640000 ![] bcast_S_S2x640000 main_c_44
  let main_v114 : IVec S2x640000 1 := cmpi .slt main_arg2 main_v113
  let main_c_45 : IVec S_ 1 := constantI S_ 1 1#1
  let main_v115 : IVec S_ 1 := (fun x v => Host.reduce IntOp.andi x v reducesTo_S2x640000_S_d0_1 h_S_) main_v114 main_c_45
  let main_v116 : IVec S_ 1 := andi main_v112 main_v115
  main_v116

def fn_part5 {F : FTy → Type} [FloatOps F] (main_arg2 : IVec S2x640000 32) (main_arg19 : FVec F S128x128 .f32) (main_arg20 : FVec F S128 .f32) (main_arg21 : FVec F S128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg2 main_arg22 main_v98 main_v101 main_c_39

def fn_part4 {F : FTy → Type} [FloatOps F] (main_arg2 : IVec S2x640000 32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_arg19 main_arg20 main_arg21 main_arg22 main_v83 main_v84 main_cst_32

def fn_part3 {F : FTy → Type} [FloatOps F] (main_arg2 : IVec S2x640000 32) (main_arg12 : FVec F S128 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_v63 main_v67

def fn_part2 {F : FTy → Type} [FloatOps F] (main_arg2 : IVec S2x640000 32) (main_arg8 : FVec F S128 .f32) (main_arg9 : FVec F S128x128 .f32) (main_arg10 : FVec F S128 .f32) (main_arg11 : FVec F S128 .f32) (main_arg12 : FVec F S128 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_arg15 main_arg16 main_arg17 main_arg18 main_arg19 main_arg20 main_arg21 main_arg22 main_v48 main_v49 main_v50

def fn_part1 {F : FTy → Type} [FloatOps F] (main_arg2 : IVec S2x640000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S640000x128 .f32) (main_arg2 : IVec S2x640000 32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S256x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S640000x128 : Shape := ⟨2, ![640000, 128]⟩
abbrev S2x640000 : Shape := ⟨2, ![2, 640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 97
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S2x640000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S1, .i32⟩
  | .hbm, ⟨36, _⟩ => ⟨S_, .i32⟩
  | .hbm, ⟨37, _⟩ => ⟨S640000x1, .i32⟩
  | .hbm, ⟨38, _⟩ => ⟨S640000x1, .i1⟩
  | .hbm, ⟨39, _⟩ => ⟨S1x1, .i32⟩
  | .hbm, ⟨40, _⟩ => ⟨S640000x1, .i32⟩
  | .hbm, ⟨41, _⟩ => ⟨S640000x1, .i1⟩
  | .hbm, ⟨42, _⟩ => ⟨S640000x1, .i1⟩
  | .hbm, ⟨43, _⟩ => ⟨S_, .i1⟩
  | .hbm, ⟨44, _⟩ => ⟨S640000, .i1⟩
  | .hbm, ⟨45, _⟩ => ⟨S640000x128, .f32⟩
  | .hbm, ⟨46, _⟩ => ⟨S640000x128, .i1⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S1, .i32⟩
  | .hbm, ⟨59, _⟩ => ⟨S_, .i32⟩
  | .hbm, ⟨60, _⟩ => ⟨S640000x1, .i32⟩
  | .hbm, ⟨61, _⟩ => ⟨S640000x1, .i1⟩
  | .hbm, ⟨62, _⟩ => ⟨S1x1, .i32⟩
  | .hbm, ⟨63, _⟩ => ⟨S640000x1, .i32⟩
  | .hbm, ⟨64, _⟩ => ⟨S640000x1, .i1⟩
  | .hbm, ⟨65, _⟩ => ⟨S640000x1, .i1⟩
  | .hbm, ⟨66, _⟩ => ⟨S_, .i1⟩
  | .hbm, ⟨67, _⟩ => ⟨S640000, .i1⟩
  | .hbm, ⟨68, _⟩ => ⟨S640000x128, .f32⟩
  | .hbm, ⟨69, _⟩ => ⟨S640000x128, .i1⟩
  | .hbm, ⟨70, _⟩ => ⟨S_, .f32⟩
  | .hbm, ⟨71, _⟩ => ⟨S640000x128, .f32⟩
  | .hbm, ⟨72, _⟩ => ⟨S640000x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S640000x128, .f32⟩
  | .hbm, ⟨83, _⟩ => ⟨S640000x128, .f32⟩
  | .hbm, ⟨84, _⟩ => ⟨S_, .f32⟩
  | .hbm, ⟨85, _⟩ => ⟨S50000x128, .f32⟩
  | .hbm, ⟨86, _⟩ => ⟨S640000x1, .i32⟩
  | .hbm, ⟨87, _⟩ => ⟨S50000x128, .f32⟩
  | .hbm, ⟨88, _⟩ => ⟨S128x128, .f32⟩
  | .hbm, ⟨89, _⟩ => ⟨S128x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15_0 : Ref sig .tc := ⟨.hbm, 82, rfl⟩
abbrev main_v15_1 : Ref sig .tc := ⟨.hbm, 83, rfl⟩
abbrev main_cst : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg13_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem13_0 : DmaSem sig := 37
abbrev cc1_sem13_1 : DmaSem sig := 38

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S640000x1_S640000x128_1_0_n_n_0_1_1128_wf : GatherDims.WF S50000x128 S640000x1 S640000x128 [1] [0] [] [0] [] 1 ![1, 128]
  dot_S4000x128_S128x128_S4000x128_1_0_0_1_n_n_wf : DotDims.WF S4000x128 S128x128 S4000x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x128.size a ≤ S640000x128.size a
  hwx0_15 : ∀ i : grid0.Coords, EltTy.bits .f32 = 32 ∨ (Rect.block (s := S640000x128) S4000x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x128.size a ≤ S640000x128.size a
  hwx0_16 : ∀ i : grid0.Coords, EltTy.bits .f32 = 32 ∨ (Rect.block (s := S640000x128) S4000x128.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x128.size a ≤ S50000x128.size a
  hwx1_13 : ∀ i : grid1.Coords, EltTy.bits .f32 = 32 ∨ (Rect.block (s := S50000x128) S5000x128.size (cc1_transform_13 i) (hinb1_13 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15_0) S4000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_1) S4000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v25) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v26) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v27) S5000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S2x640000 : Shape := ⟨2, ![2, 640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S640000x128, .f32⟩
  | 2 => ⟨S2x640000, .i32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S256x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128, .f32⟩
  | 22 => ⟨S128, .f32⟩
  | 23 => ⟨S1x640000, .i32⟩
  | 24 => ⟨S640000, .i32⟩
  | 25 => ⟨S1x640000, .i32⟩
  | 26 => ⟨S640000, .i32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S640000x384, .f32⟩
  | 46 => ⟨S640000x128, .f32⟩
  | 47 => ⟨S1x128, .f32⟩
  | 48 => ⟨S640000x128, .f32⟩
  | 49 => ⟨S640000x128, .f32⟩
  | 50 => ⟨S_, .f32⟩
  | 51 => ⟨S640000x128, .f32⟩
  | 52 => ⟨S640000x128, .f32⟩
  | 53 => ⟨S640000x128, .f32⟩
  | 54 => ⟨S1x128, .f32⟩
  | 55 => ⟨S640000x128, .f32⟩
  | 56 => ⟨S640000x128, .f32⟩
  | 57 => ⟨S_, .f32⟩
  | 58 => ⟨S640000x128, .f32⟩
  | 59 => ⟨S640000x128, .f32⟩
  | 60 => ⟨S640000x128, .f32⟩
  | 61 => ⟨S1x128, .f32⟩
  | 62 => ⟨S640000x128, .f32⟩
  | 63 => ⟨S640000x128, .f32⟩
  | 64 => ⟨S_, .f32⟩
  | 65 => ⟨S640000x128, .f32⟩
  | 66 => ⟨S640000x128, .f32⟩
  | 67 => ⟨S640000x128, .f32⟩
  | 68 => ⟨S1x128, .f32⟩
  | 69 => ⟨S640000x128, .f32⟩
  | 70 => ⟨S640000x128, .f32⟩
  | 71 => ⟨S_, .f32⟩
  | 72 => ⟨S640000, .f32⟩
  | 73 => ⟨S640000x1, .f32⟩
  | 74 => ⟨S_, .f32⟩
  | 75 => ⟨S640000x1, .f32⟩
  | 76 => ⟨S640000x1, .f32⟩
  | 77 => ⟨S640000x128, .f32⟩
  | 78 => ⟨S640000x128, .f32⟩
  | 79 => ⟨S640000x128, .f32⟩
  | 80 => ⟨S_, .f32⟩
  | 81 => ⟨S640000, .f32⟩
  | 82 => ⟨S640000x1, .f32⟩
  | 83 => ⟨S_, .f32⟩
  | 84 => ⟨S640000x1, .f32⟩
  | 85 => ⟨S640000x1, .f32⟩
  | 86 => ⟨S640000x128, .f32⟩
  | 87 => ⟨S640000x128, .f32⟩
  | 88 => ⟨S_, .f32⟩
  | 89 => ⟨S640000x1, .f32⟩
  | 90 => ⟨S640000x1, .f32⟩
  | 91 => ⟨S640000x1, .f32⟩
  | 92 => ⟨S640000x128, .f32⟩
  | 93 => ⟨S640000x128, .f32⟩
  | 94 => ⟨S1x128, .f32⟩
  | 95 => ⟨S640000x128, .f32⟩
  | 96 => ⟨S640000x128, .f32⟩
  | 97 => ⟨S1x128, .f32⟩
  | 98 => ⟨S640000x128, .f32⟩
  | 99 => ⟨S640000x128, .f32⟩
  | 100 => ⟨S_, .f32⟩
  | 101 => ⟨S50000x128, .f32⟩
  | 102 => ⟨S640000x1, .i32⟩
  | 103 => ⟨S50000x128, .f32⟩
  | 104 => ⟨S50000x256, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | 10 => ⟨S50000x128, .f32⟩
  | 11 => ⟨S_, .f32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S_, .f32⟩
  | 20 => ⟨S50000x1, .f32⟩
  | 21 => ⟨S50000x1, .f32⟩
  | 22 => ⟨S50000x1, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S640000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call0_cst : Ref sig .tc := ⟨.hbm, 50, rfl⟩
abbrev main_call0_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call1_cst : Ref sig .tc := ⟨.hbm, 57, rfl⟩
abbrev main_call1_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_cst : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst : Ref sig .tc := ⟨.hbm, 71, rfl⟩
abbrev main_v38 : Ref sig .tc := ⟨.hbm, 72, rfl⟩
abbrev main_v39 : Ref sig .tc := ⟨.hbm, 73, rfl⟩
abbrev main_cst_3 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_4 : Ref sig .tc := ⟨.hbm, 80, rfl⟩
abbrev main_v45 : Ref sig .tc := ⟨.hbm, 81, rfl⟩
abbrev main_v46 : Ref sig .tc := ⟨.hbm, 82, rfl⟩
abbrev main_cst_5 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call3_cst : Ref sig .tc := ⟨.hbm, 109, rfl⟩
abbrev main_call3_v0 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call4_cst : Ref sig .tc := ⟨.hbm, 116, rfl⟩
abbrev main_call4_v0 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_call5_cst : Ref sig .tc := ⟨.hbm, 123, rfl⟩
abbrev main_call5_v0 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_8 : Ref sig .tc := ⟨.hbm, 130, rfl⟩
abbrev main_v85 : Ref sig .tc := ⟨.hbm, 131, rfl⟩
abbrev main_v86 : Ref sig .tc := ⟨.hbm, 132, rfl⟩
abbrev main_cst_9 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_10 : Ref sig .tc := ⟨.hbm, 139, rfl⟩
abbrev main_v92 : Ref sig .tc := ⟨.hbm, 140, rfl⟩
abbrev main_v93 : Ref sig .tc := ⟨.hbm, 141, rfl⟩
abbrev main_cst_11 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_12 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowSpec.lean ====
/-
  The graph-network block, row by row, on the extended reals.

  Every stage of the block except the two gathers and the scatter-add acts on ONE row of 128 features at a time:
  a dense layer  x ↦ x·W + b,  the rectifier  h ↦ max h 0,  and the layer normalisation
      h ↦ (h − μ) · (σ² + ε)^(−1/2) · γ + β,   μ = (Σ h)/128,   σ² = (Σ (h − μ)²)/128.
  An updated edge is the normalised three-hidden-layer perceptron of  sender·Wₛ + receiver·Wᵣ + edge·Wₑ + b₀ ,
  an updated node the same perceptron of  node·Wₙ + aggregate·Wₐ + b₀ .  The three (two) products are the one product
  of the concatenated row with the stacked 384×128 (256×128) matrix cut at the multiples of 128: a finite sum over
  a disjoint union, which needs only that addition of extended reals is commutative and associative
  (`sum_three_blocks`, `sum_two_blocks`).  The literals 0, 128 and ε are kept as their binary words.
-/
import Idealize.ShloMosaic.PureOps.Ideal
import Idealize.ShloMosaic.PureOps.Ideal.Laws
import Mathlib.Algebra.BigOperators.Fin
import Idealize.ShloMosaic.Lib.ValueIdx

noncomputable section

namespace Cert.GraphNet

open Idealize.ShloMosaic Idealize.ShloMosaic.ValueIdx

/-- A row of 128 features. -/
abbrev Row := Fin 128 → EReal
/-- A 128×128 weight matrix, `w k j` the weight from input feature `k` to output feature `j`. -/
abbrev Mat := Fin 128 → Fin 128 → EReal

/-- The words of the three float literals both programs carry: 0, 128 and ε = f32(1e-5). -/
def wZero : EReal := Ideal.ofBits .f32 0x00000000#32
def wWidth : EReal := Ideal.ofBits .f32 0x43000000#32
def wEps : EReal := Ideal.ofBits .f32 0x3727C5AC#32

/-- The row times a matrix: output feature `j` is Σₖ xₖ·w k j. -/
def vecMat (x : Row) (w : Mat) : Row := fun j => ∑ k : Fin 128, x k * w k j

/-- A dense layer. -/
def dense (x : Row) (w : Mat) (b : Row) : Row := fun j => vecMat x w j + b j

/-- The rectifier. -/
def relu (h : Row) : Row := fun j => max (h j) wZero

/-- The mean of a row: its sum over the literal 128. -/
def rowMean (h : Row) : EReal := Ideal.div (∑ k : Fin 128, h k) wWidth

/-- The row less its mean. -/
def centred (h : Row) : Row := fun j => h j - rowMean h

/-- Layer normalisation with gain `g` and offset `be`. -/
def layerNorm (h g be : Row) : Row := fun j =>
  centred h j * Ideal.rsqrt (rowMean (fun k => centred h k * centred h k) + wEps) * g j + be j

/-- The perceptron after its first layer's pre-activation `h0`: rectify, two more rectified dense layers, a last dense
    layer, the normalisation. -/
def mlpTail (h0 : Row) (w1 : Mat) (b1 : Row) (w2 : Mat) (b2 : Row) (w3 : Mat) (b3 g be : Row) : Row :=
  layerNorm (dense (relu (dense (relu (dense (relu h0) w1 b1)) w2 b2)) w3 b3) g be

/-- The updated edge features from the sender's, the receiver's and the edge's own rows. -/
def edgeUpdate (s r e : Row) (ws wr we : Mat) (b0 : Row) (w1 : Mat) (b1 : Row) (w2 : Mat) (b2 : Row) (w3 : Mat)
    (b3 g be : Row) : Row :=
  mlpTail (fun j => ((vecMat s ws j + vecMat r wr j) + vecMat e we j) + b0 j) w1 b1 w2 b2 w3 b3 g be

/-- The updated node features from the node's own row and its aggregated incoming edges. -/
def nodeUpdate (n a : Row) (wn wa : Mat) (b0 : Row) (w1 : Mat) (b1 : Row) (w2 : Mat) (b2 : Row) (w3 : Mat)
    (b3 g be : Row) : Row :=
  mlpTail (fun j => (vecMat n wn j + vecMat a wa j) + b0 j) w1 b1 w2 b2 w3 b3 g be

/-! ## Rows, matrices and vectors read off arrays -/

/-- Row `p` of an array of `n` rows of 128 features. -/
def rowOf {n : Nat} (x : (⟨2, ![n, 128]⟩ : Shape).Idx → EReal) (p : Fin n) : Row := fun q => x (ix2 p q)

/-- A 128×128 array as a weight matrix. -/
def matOf (x : (⟨2, ![128, 128]⟩ : Shape).Idx → EReal) : Mat := fun k j => x (ix2 k j)

/-- The 128 rows from row `o` on of a taller array of 128 columns, as a weight matrix. -/
def matBlock {r : Nat} (x : (⟨2, ![r, 128]⟩ : Shape).Idx → EReal) (o : Nat) (h : o + 128 ≤ r) : Mat :=
  fun k j => x (ix2 ⟨o + k.val, by omega⟩ j)

/-- A 1×128 array as a row. -/
def vecOf (x : (⟨2, ![1, 128]⟩ : Shape).Idx → EReal) : Row := fun j => x (ix2 0 j)

/-- A length-128 array as a row. -/
def vec1Of (x : (⟨1, ![128]⟩ : Shape).Idx → EReal) : Row := fun j => x (ix1 j)

/-- Every entry of the 2×640000 endpoint table names a node: 0 ≤ index < 50000, as the two signed comparisons say it. -/
def IndexInRange (a : (⟨2, ![2, 640000]⟩ : Shape).Idx → BitVec 32) : Prop :=
  ∀ i, IntOp.cmpi .sge (a i) 0#32 = 1#1 ∧ IntOp.cmpi .slt (a i) 50000#32 = 1#1

/-- A sum over 384 = 128 + 128 + 128 indices is the sum of the three blocks' sums, grouped from the left. -/
theorem sum_three_blocks (f : Fin 384 → EReal) :
    ∑ k : Fin 384, f k
      = (∑ k : Fin 128, f ⟨k.val, by omega⟩ + ∑ k : Fin 128, f ⟨128 + k.val, by omega⟩)
        + ∑ k : Fin 128, f ⟨256 + k.val, by omega⟩ := by
  have h := Fin.sum_univ_add (M := EReal) (a := 256) (b := 128) f
  have h' := Fin.sum_univ_add (M := EReal) (a := 128) (b := 128) (fun i => f (Fin.castAdd 128 i))
  rw [h, h']
  rfl

/-- A sum over 256 = 128 + 128 indices is the sum of the two halves' sums. -/
theorem sum_two_blocks (f : Fin 256 → EReal) :
    ∑ k : Fin 256, f k = ∑ k : Fin 128, f ⟨k.val, by omega⟩ + ∑ k : Fin 128, f ⟨128 + k.val, by omega⟩ := by
  rw [Fin.sum_univ_add (M := EReal) (a := 128) (b := 128) f]
  rfl

end Cert.GraphNet

end
-- ==== Proof.IndexRange.lean ====
/-
  The precondition's last two conjuncts, read back: every entry of the endpoint table is a node index.

  The precondition is one conjunction of "all" tests; its last two are "every endpoint ≥ 0" and "every endpoint < 50000",
  each an and-reduction of a signed comparison against a broadcast constant. Where the whole conjunction is true both
  reductions are, and an and-reduction is true only where every compared entry is.
-/
import proofs.«410880_j33672543601340_1_alg».proof.Defs
import proofs.«410880_j33672543601340_1_alg».proof.Proof.Gen.Pre_finite_inputs
import proofs.«410880_j33672543601340_1_alg».proof.Proof.Gen.KernelIdeal
import proofs.«410880_j33672543601340_1_alg».proof.Proof.RowSpec
import Idealize.ShloMosaic.Lib.ReduceAll
import Idealize.ShloMosaic.Lib.StableHlo.Predicate

noncomputable section

namespace Cert.GraphNet.IndexRange

open Cert.KernelIdeal Cert.GraphNet
open Idealize.ShloMosaic Idealize.SL.Sem

/-- The rank-0 shape has one index. -/
instance : Subsingleton Cert.Pre_finite_inputs.S_.Idx := ⟨fun a b => funext fun d => d.elim0⟩

/-- Under the precondition every endpoint names a node. -/
theorem of_pre (m : (ℓ : Loc nD τ sig) → Buf (Elt Ideal) ℓ) (h : Cert.Pre_KernelIdeal m) (c : Dev nD) :
    IndexInRange (m ((c.tc : Thread nD τ).loc main_arg2)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  obtain ⟨e1, hlt⟩ := IntOp.andi_eq_one.1 e
  obtain ⟨-, hge⟩ := IntOp.andi_eq_one.1 e1
  intro i
  exact ⟨Host.reduce_andi_all _ _ _ _ _ hge i, Host.reduce_andi_all _ _ _ _ _ hlt i⟩

end Cert.GraphNet.IndexRange

end
-- ==== Proof.KernelTerms.lean ====
/-
  The kernel program's host-side terms around its two launches, named once.

  An endpoint row of the 2×640000 table (row 0 the senders, row 1 the receivers), the same row with a negative entry
  moved up by the node count 50000 and laid out as a column of gather start indices, the gather of node rows at such a
  column, the zero array the aggregation starts from, and the scatter-add of edge rows into it at the receivers.
-/
import proofs.«410880_j33672543601340_1_alg».proof.KernelIdeal
import proofs.«410880_j33672543601340_1_alg».proof.Proof.Gen.KernelIdeal
import proofs.«410880_j33672543601340_1_alg».proof.Proof.RowSpec

noncomputable section

namespace Cert.GraphNet.KernelTerms

open Cert.KernelIdeal Cert.KernelIdeal.Gen Cert.GraphNet
open Idealize.ShloMosaic

/-- The senders: row 0 of the endpoint table, as a vector of 640000 node indices. -/
def sendRaw (a2 : IVec S2x640000 32) : IVec S640000 32 :=
  shapeCast _ (extractStridedSlice S1x640000 ![0, 0] a2 slices_S2x640000_S1x640000_0_0) shapeCasts_S1x640000_S640000

/-- The receivers: row 1 of the endpoint table. -/
def recvRaw (a2 : IVec S2x640000 32) : IVec S640000 32 :=
  shapeCast _ (extractStridedSlice S1x640000 ![1, 0] a2 slices_S2x640000_S1x640000_1_0) shapeCasts_S1x640000_S640000

/-- A vector of node indices with each negative entry moved up by 50000 (Python's wrap-around indexing). -/
def wrapNeg (x : IVec S640000 32) : IVec S640000 32 :=
  select (cmpi .slt x (broadcastInDim S640000 ![] bcast_S_S640000 (constantI S_ 32 0#32)))
    (addi x (broadcastInDim S640000 ![] bcast_S_S640000 (constantI S_ 32 50000#32))) x

/-- A vector of indices laid out as the 640000×1 column of start indices a row gather or scatter takes. -/
def asColumn (x : IVec S640000 32) : IVec S640000x1 32 := broadcastInDim S640000x1 ![0] bcast_S640000_S640000x1_0 x

/-- The rows of the node table at a column of start indices. -/
def gatherRows (a0 : FVec Ideal S50000x128 .f32) (i : IVec S640000x1 32) : FVec Ideal S640000x128 .f32 :=
  Host.gather gather_S50000x128_S640000x1_S640000x128_1_0_n_n_0_1_1128 a0 i

/-- The all-zero node-shaped array. -/
def zeroNodes : FVec Ideal S50000x128 .f32 := broadcastInDim S50000x128 ![] bcast_S_S50000x128 (constant S_ .f32 0x00000000#32)

/-- Edge rows summed into the zero array at a column of receiver indices. -/
def aggregate (i : IVec S640000x1 32) (u : FVec Ideal S640000x128 .f32) : FVec Ideal S50000x128 .f32 :=
  Host.scatterAdd scatter_S50000x128_S640000x1_S640000x128_1_0_0_1 zeroNodes i u

end Cert.GraphNet.KernelTerms

end
-- ==== Proof.EdgeRegion.lean ====
/-
  The edge launch's two result arrays, entry by entry, from the contents `V` the launch is entered with.

  The launch cuts the 640000 edges into 160 blocks of 4000 rows; block `t` of each result is the body's value on block `t`
  of the three edge-shaped operands and on the whole weight and bias operands, and the body acts row by row. So row `p` of
  the first result is the updated edge `edgeUpdate` of row `p` of the three operands, and row `p` of the second is the
  edge's own row plus that.
-/
import proofs.«410880_j33672543601340_1_alg».proof.Proof.Gen.KernelIdeal.Frame
import proofs.«410880_j33672543601340_1_alg».proof.Proof.RowSpec
import proofs.«410880_j33672543601340_1_alg».proof.Proof.KernelTerms
import Idealize.ShloMosaic.Lib.ValueIdx
import Idealize.ShloMosaic.Lib.Pipeline.Value
import Idealize.ShloMosaic.PureOps.Ideal.Laws
import Idealize.ShloMosaic.Lib.ValueLayout

noncomputable section

namespace Cert.GraphNet.EdgeRegion

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one row and one feature

The body's values are, at row `p` and feature `q` of a block, the stages of `edgeUpdate` on row `p` of the
three edge-shaped blocks: a block product into the zero accumulator is the row times the matrix, a bias block is the
bias row repeated, a lane sum is the sum over the row, and the two keepdims layouts carry a per-row number back over
the row. -/

section Body

private theorem lhs_blk_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs_blk_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs_blk_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs_blk_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at row `p` and feature `q`: row `p` of the left block times the
    right block as a matrix. -/
private theorem blockProduct_apply {φ₁ φ₂ : FTy} (a : FVec Ideal S4000x128 φ₁) (w : FVec Ideal S128x128 φ₂) (p : Fin 4000) (q : Fin 128) :
    matmul dot_S4000x128_S128x128_S4000x128_1_0_0_1_n_n none a w (constant (F := Ideal) S4000x128 .f32 0x00000000#32) (ix2 p q)
      = vecMat (fun k => a (ix2 p k)) (fun k j => w (ix2 k j)) q := by
  show _ = ∑ k : Fin 128, a (ix2 p k) * w (ix2 k q)
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- A bias block at row `p`, feature `q`: the bias row at `q`. -/
private theorem biasBlock_apply (b : Vec Ideal S1x128 .f32) (hb : S1x128.Broadcasts S4000x128) (p : Fin 4000) (q : Fin 128) :
    broadcastTo S4000x128 b hb (ix2 p q) = vecOf b q :=
  broadcastTo_1b_ab_apply b hb p q

/-- A lane sum at row `p`: the sum over the row. -/
private theorem laneSum_apply (v : FVec Ideal S4000x128 .f32) (h : S4000x128.Reduces [1] S4000) (hφ : FKind.Formats .f32)
    (hacc : (0x00000000#32 : BitVec 32) = FKind.add.neutral .f32 hφ) (p : Fin 4000) :
    multiReduction .add [1] S4000 v 0x00000000#32 h hφ hacc (ix1 p) = ∑ k : Fin 128, v (ix2 p k) := by
  refine (Ideal.multiReduction_add_single v _ h hφ hacc (ix1 p)).trans ?_
  show ∑ k : Fin 128, v (h.lift (ix1 p) k) = ∑ k : Fin 128, v (ix2 p k)
  refine Finset.sum_congr rfl fun k _ => congrArg v (funext fun c => Fin.ext ?_)
  match c with
  | ⟨0, _⟩ => rfl
  | ⟨1, _⟩ => rfl

/-- A vector of per-row numbers laid out as a column reads the number of its row. -/
private theorem column_apply (v : FVec Ideal S4000 .f32) (h : S4000.ShapeCasts S4000x1) (p : Fin 4000) (u : Fin 1) :
    shapeCast S4000x1 v h (ix2 p u) = v (ix1 p) :=
  shapeCast_apply v h _ _ (by
    have hu : u.val = 0 := by omega
    rw [Shape.rowMajor_val_two, Shape.rowMajor_val_one]
    show p.val = p.val * 1 + u.val
    omega)

/-- A column repeated over the 128 features reads, at row `p`, the column at `p`. -/
private theorem spread_apply (cl : FVec Ideal S4000x1 .f32) (h : S4000x1.Broadcasts S4000x128) (p : Fin 4000) (q : Fin 128) :
    broadcastTo S4000x128 cl h (ix2 p q) = cl (ix2 p (0 : Fin 1)) := by
  refine broadcastTo_apply cl h (ix2 p q) (ix2 p (0 : Fin 1)) fun ax => ?_
  match ax with
  | ⟨0, _⟩ => show p.val = if (4000 : Nat) = 1 then 0 else p.val; rw [if_neg (by decide)]
  | ⟨1, _⟩ => show (0 : Nat) = if (1 : Nat) = 1 then 0 else q.val; rw [if_pos rfl]

/-- A dense layer on a block: product into the zero accumulator plus the bias block. -/
private theorem denseBlock_apply {φ₁ φ₂ : FTy} (a : FVec Ideal S4000x128 φ₁) (w : FVec Ideal S128x128 φ₂) (b : Vec Ideal S1x128 .f32)
    (hb : S1x128.Broadcasts S4000x128) (p : Fin 4000) (q : Fin 128) :
    addf (matmul dot_S4000x128_S128x128_S4000x128_1_0_0_1_n_n none a w (constant (F := Ideal) S4000x128 .f32 0x00000000#32))
        (broadcastTo S4000x128 b hb) (ix2 p q)
      = dense (fun k => a (ix2 p k)) (fun k j => w (ix2 k j)) (vecOf b) q := by
  show matmul dot_S4000x128_S128x128_S4000x128_1_0_0_1_n_n none a w (constant (F := Ideal) S4000x128 .f32 0x00000000#32) (ix2 p q)
      + broadcastTo S4000x128 b hb (ix2 p q) = vecMat _ _ q + vecOf b q
  rw [blockProduct_apply, biasBlock_apply]

/-- The first layer's pre-activation of an edge from the sender's, the receiver's and the edge's own rows. -/
private def firstLayer (s r e : Row) (ws wr we : Mat) (b0 : Row) : Row :=
  fun j => ((vecMat s ws j + vecMat r wr j) + vecMat e we j) + b0 j

private theorem add4 {a b c d a' b' c' d' : EReal} (ha : a = a') (hb : b = b') (hc : c = c') (hd : d = d') :
    ((a + b) + c) + d = ((a' + b') + c') + d' := by subst ha hb hc hd; rfl

/-- The body up to the second layer's pre-activation. -/
private theorem pay3_apply (x0 x1 x2 : Vec Ideal S4000x128 .f32) (w0s w0r w0e : Vec Ideal S128x128 .f32) (b0 : Vec Ideal S1x128 .f32)
    (w1 : Vec Ideal S128x128 .f32) (b1 : Vec Ideal S1x128 .f32) (p : Fin 4000) (q : Fin 128) :
    k0_pay3 (F := Ideal) x0 x1 x2 w0s w0r w0e b0 w1 b1 (ix2 p q)
      = dense (relu (firstLayer (fun k => x0 (ix2 p k)) (fun k => x1 (ix2 p k)) (fun k => x2 (ix2 p k)) (matOf w0s) (matOf w0r) (matOf w0e) (vecOf b0)))
          (matOf w1) (vecOf b1) q := by
  unfold k0_pay3
  simp only [shapeCast_self]
  refine (denseBlock_apply _ _ _ _ p q).trans ?_
  refine congrArg (fun r => dense r (matOf w1) (vecOf b1) q) (funext fun k => ?_)
  refine congrArg (fun z => max z wZero) ?_
  exact add4 (blockProduct_apply _ _ p k) (blockProduct_apply _ _ p k) (blockProduct_apply _ _ p k) (biasBlock_apply _ _ p k)

/-- The mean of each row of a block, as a column. -/
private def meanCol (v : FVec Ideal S4000x128 .f32) (hr : S4000x128.Reduces [1] S4000) (hφ : FKind.Formats .f32)
    (hacc : (0x00000000#32 : BitVec 32) = FKind.add.neutral .f32 hφ) (hc : S4000.ShapeCasts S4000x1) : FVec Ideal S4000x1 .f32 :=
  divf (shapeCast S4000x1 (multiReduction .add [1] S4000 v 0x00000000#32 hr hφ hacc) hc)
    (broadcast S4000x1 (Scalar.ofBits (F := Ideal) .f32 0x43000000#32))

private theorem meanCol_apply (v : FVec Ideal S4000x128 .f32) (hr : S4000x128.Reduces [1] S4000) (hφ : FKind.Formats .f32)
    (hacc : (0x00000000#32 : BitVec 32) = FKind.add.neutral .f32 hφ) (hc : S4000.ShapeCasts S4000x1) (p : Fin 4000) (u : Fin 1) :
    meanCol v hr hφ hacc hc (ix2 p u) = rowMean (fun k => v (ix2 p k)) := by
  show Ideal.div (shapeCast S4000x1 (multiReduction .add [1] S4000 v 0x00000000#32 hr hφ hacc) hc (ix2 p u)) wWidth
    = Ideal.div (∑ k : Fin 128, v (ix2 p k)) wWidth
  rw [column_apply, laneSum_apply]

/-- A block less its rows' means. -/
private def centredBlock (v : FVec Ideal S4000x128 .f32) (hr : S4000x128.Reduces [1] S4000) (hφ : FKind.Formats .f32)
    (hacc : (0x00000000#32 : BitVec 32) = FKind.add.neutral .f32 hφ) (hc : S4000.ShapeCasts S4000x1)
    (hb : S4000x1.Broadcasts S4000x128) : FVec Ideal S4000x128 .f32 :=
  subf v (broadcastTo S4000x128 (meanCol v hr hφ hacc hc) hb)

private theorem centredBlock_apply (v : FVec Ideal S4000x128 .f32) (hr : S4000x128.Reduces [1] S4000) (hφ : FKind.Formats .f32)
    (hacc : (0x00000000#32 : BitVec 32) = FKind.add.neutral .f32 hφ) (hc : S4000.ShapeCasts S4000x1)
    (hb : S4000x1.Broadcasts S4000x128) (p : Fin 4000) (q : Fin 128) :
    centredBlock v hr hφ hacc hc hb (ix2 p q) = centred (fun k => v (ix2 p k)) q := by
  show v (ix2 p q) - broadcastTo S4000x128 (meanCol v hr hφ hacc hc) hb (ix2 p q) = v (ix2 p q) - rowMean (fun k => v (ix2 p k))
  rw [spread_apply, meanCol_apply]

/-- A row less its mean, over the root of its variance plus ε: the normalisation before gain and offset. -/
private def normRow (h : Row) : Row :=
  fun j => centred h j * Ideal.rsqrt (rowMean (fun k => centred h k * centred h k) + wEps)

private theorem normBlock_apply (v : FVec Ideal S4000x128 .f32) (hr : S4000x128.Reduces [1] S4000) (hφ : FKind.Formats .f32)
    (hacc : (0x00000000#32 : BitVec 32) = FKind.add.neutral .f32 hφ) (hc : S4000.ShapeCasts S4000x1)
    (hb : S4000x1.Broadcasts S4000x128) (p : Fin 4000) (q : Fin 128) :
    mulf (centredBlock v hr hφ hacc hc hb)
        (broadcastTo S4000x128
          (rsqrt (addf (meanCol (mulf (centredBlock v hr hφ hacc hc hb) (centredBlock v hr hφ hacc hc hb)) hr hφ hacc hc)
            (broadcast S4000x1 (Scalar.ofBits (F := Ideal) .f32 0x3727C5AC#32)))) hb) (ix2 p q)
      = normRow (fun k => v (ix2 p k)) q := by
  show centredBlock v hr hφ hacc hc hb (ix2 p q) * broadcastTo S4000x128 _ hb (ix2 p q) = _
  rw [centredBlock_apply, spread_apply]
  show _ * Ideal.rsqrt (meanCol (mulf (centredBlock v hr hφ hacc hc hb) (centredBlock v hr hφ hacc hc hb)) hr hφ hacc hc (ix2 p 0) + wEps) = _
  rw [meanCol_apply]
  refine congrArg (fun z => centred (fun k => v (ix2 p k)) q * Ideal.rsqrt (rowMean z + wEps)) (funext fun k => ?_)
  show centredBlock v hr hφ hacc hc hb (ix2 p k) * centredBlock v hr hφ hacc hc hb (ix2 p k) = _
  rw [centredBlock_apply]

/-- From there: rectify, dense, rectify, dense, and the normalisation before gain and offset. -/
private theorem pay4_apply (v35 : FVec Ideal S4000x128 .f32) (w2 : Vec Ideal S128x128 .f32) (b2 : Vec Ideal S1x128 .f32)
    (w3 : Vec Ideal S128x128 .f32) (b3 : Vec Ideal S1x128 .f32) (p : Fin 4000) (q : Fin 128) :
    k0_pay4 (F := Ideal) v35 w2 b2 w3 b3 (ix2 p q)
      = normRow (dense (relu (dense (relu (fun k => v35 (ix2 p k))) (matOf w2) (vecOf b2))) (matOf w3) (vecOf b3)) q := by
  unfold k0_pay4
  simp only [shapeCast_self]
  refine (normBlock_apply _ _ _ _ _ _ p q).trans ?_
  refine congrArg (fun r => normRow r q) (funext fun k => ?_)
  refine (denseBlock_apply _ _ _ _ p k).trans ?_
  refine congrArg (fun r => dense r (matOf w3) (vecOf b3) k) (funext fun k' => ?_)
  refine congrArg (fun z => max z wZero) ?_
  refine (denseBlock_apply _ _ _ _ p k').trans ?_
  exact congrArg (fun r => dense r (matOf w2) (vecOf b2) k') (funext fun k'' => rfl)

/-- The gain block at row `p`, feature `q`: the gain row at `q`. -/
private theorem pay5_apply (g : Vec Ideal S1x128 .f32) (p : Fin 4000) (q : Fin 128) :
    k0_pay5 (F := Ideal) g (ix2 p q) = vecOf g q := by
  unfold k0_pay5
  simp only [shapeCast_self]
  exact biasBlock_apply _ _ p q

/-- The stored update: the normalised block times the gain block plus the offset row. -/
private theorem pay1_apply (v73 v76 : FVec Ideal S4000x128 .f32) (be : Vec Ideal S1x128 .f32) (p : Fin 4000) (q : Fin 128) :
    k0_pay1 (F := Ideal) v73 v76 be (ix2 p q) = v73 (ix2 p q) * v76 (ix2 p q) + vecOf be q := by
  unfold k0_pay1
  simp only [shapeCast_self]
  show v73 (ix2 p q) * v76 (ix2 p q) + broadcastTo S4000x128 be _ (ix2 p q) = _
  rw [biasBlock_apply]

/-- The body's stored update at row `p`, feature `q` of a block: the updated edge of row `p` of the three edge-shaped
    blocks. -/
private theorem updBlock_apply (x0 x1 x2 : Vec Ideal S4000x128 .f32) (x3 x4 x5 : Vec Ideal S128x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 x13 x14 : Vec Ideal S1x128 .f32) (p : Fin 4000) (q : Fin 128) :
    k0_pay1 (F := Ideal) (k0_pay4 (k0_pay3 x0 x1 x2 x3 x4 x5 x6 x7 x8) x9 x10 x11 x12) (k0_pay5 x13) x14 (ix2 p q)
      = edgeUpdate (rowOf (n := 4000) x0 p) (rowOf (n := 4000) x1 p) (rowOf (n := 4000) x2 p) (matOf x3) (matOf x4) (matOf x5) (vecOf x6)
          (matOf x7) (vecOf x8) (matOf x9) (vecOf x10) (matOf x11) (vecOf x12) (vecOf x13) (vecOf x14) q := by
  rw [pay1_apply, pay4_apply, pay5_apply]
  simp only [pay3_apply]
  rfl

/-- The second stored block: the edge's own block plus the update. -/
private theorem outBlock_apply (x0 x1 x2 : Vec Ideal S4000x128 .f32) (x3 x4 x5 : Vec Ideal S128x128 .f32) (x6 : Vec Ideal S1x128 .f32)
    (x7 : Vec Ideal S128x128 .f32) (x8 : Vec Ideal S1x128 .f32) (x9 : Vec Ideal S128x128 .f32) (x10 : Vec Ideal S1x128 .f32)
    (x11 : Vec Ideal S128x128 .f32) (x12 x13 x14 : Vec Ideal S1x128 .f32) (p : Fin 4000) (q : Fin 128) :
    k0_pay2 (F := Ideal) x2 (k0_pay4 (k0_pay3 x0 x1 x2 x3 x4 x5 x6 x7 x8) x9 x10 x11 x12) (k0_pay5 x13) x14 (ix2 p q)
      = rowOf (n := 4000) x2 p q + edgeUpdate (rowOf (n := 4000) x0 p) (rowOf (n := 4000) x1 p) (rowOf (n := 4000) x2 p) (matOf x3) (matOf x4) (matOf x5) (vecOf x6)
          (matOf x7) (vecOf x8) (matOf x9) (vecOf x10) (matOf x11) (vecOf x12) (vecOf x13) (vecOf x14) q := by
  unfold k0_pay2
  show x2 (ix2 p q) + k0_pay1 (F := Ideal) _ _ _ (ix2 p q) = _
  rw [updBlock_apply]
  rfl

end Body

/-- The updated features of edge `p`, from the launch's operands as entered. -/
def updRow (c : Dev nD) (p : Fin 640000) : Row :=
  edgeUpdate (rowOf (n := 640000) (V c main_v4) p) (rowOf (n := 640000) (V c main_v5) p) (rowOf (n := 640000) (V c main_arg1) p)
    (matOf (V c main_v6)) (matOf (V c main_v7)) (matOf (V c main_v8)) (vecOf (V c main_v9))
    (matOf (V c main_arg5)) (vecOf (V c main_v10)) (matOf (V c main_arg7)) (vecOf (V c main_v11))
    (matOf (V c main_arg9)) (vecOf (V c main_v12)) (vecOf (V c main_v13)) (vecOf (V c main_v14))

/-! ## From the blocks to the arrays

Point `t` of the grid stages rows `4000·t … 4000·t + 3999` of the three edge-shaped operands and of the two results, and
the whole of every weight and bias operand; so what it writes back is rows `4000·t …` of one function of the entry
contents, and the 160 points' blocks tile the 640000 rows. -/

section Blocks

private theorem hz : (![0, 0] : Fin 2 → Nat) = fun _ => 0 := funext fun a => by fin_cases a <;> rfl

/-- The edge-shaped windows' block index at point `t` is `(t, 0)` (decided over the grid). -/
private theorem idx_edge : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weight and bias windows' block index is `(0, 0)` at every point (decided over the grid). -/
private theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Row `p` of point `t`'s block of an edge-shaped operand is row `4000·t + p` of the operand (three operands). -/
private theorem rows0 (c : Dev nD) (t : Fin cfg0.N) (p : Fin 4000) (h : 4000 * t.val + p.val < 640000) :
    rowOf (n := 4000) (iblk0 V c 0 t) p = rowOf (n := 640000) (V c main_v4) ⟨4000 * t.val + p.val, h⟩ := by
  obtain ⟨e0, e1, -, -, -, -, -, -, -, -⟩ := idx_edge t
  funext k
  show (iblk0 V c 0 t : Vec Ideal S4000x128 .f32) (ix2 p k) = (V c main_v4 : S640000x128.Idx → EReal) (ix2 ⟨4000 * t.val + p.val, h⟩ k)
  unfold iblk0
  rw [View.read_apply]
  show (V c main_v4 : S640000x128.Idx → EReal) _ = (V c main_v4 : S640000x128.Idx → EReal) _
  refine congrArg (V c main_v4 : S640000x128.Idx → EReal) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

private theorem rows1 (c : Dev nD) (t : Fin cfg0.N) (p : Fin 4000) (h : 4000 * t.val + p.val < 640000) :
    rowOf (n := 4000) (iblk0 V c 1 t) p = rowOf (n := 640000) (V c main_v5) ⟨4000 * t.val + p.val, h⟩ := by
  obtain ⟨-, -, e0, e1, -, -, -, -, -, -⟩ := idx_edge t
  funext k
  show (iblk0 V c 1 t : Vec Ideal S4000x128 .f32) (ix2 p k) = (V c main_v5 : S640000x128.Idx → EReal) (ix2 ⟨4000 * t.val + p.val, h⟩ k)
  unfold iblk0
  rw [View.read_apply]
  show (V c main_v5 : S640000x128.Idx → EReal) _ = (V c main_v5 : S640000x128.Idx → EReal) _
  refine congrArg (V c main_v5 : S640000x128.Idx → EReal) (funext fun a => Fin.ext ?_)
  match a with
  | ⟨0, _⟩ => show win0_1.index t (0 : Fin 2) * 4000 + 1 * p.val = 4000 * t.val + p.val; rw [e0]; omega
  | ⟨1, _⟩ => show win0_1.index t (1 : Fin 2) * 128 + 1 * k.val = k.val; rw [e1]; omega

private theorem rows2 (c : Dev nD) (t : Fin cfg0.N) (p : Fin 4000) (h : 4000 * t.val + p.val < 640000) :
    rowOf (n := 4000) (iblk0 V c 2 t) p = rowOf (n := 640000) (V c main_arg1) ⟨4000 * t.val + p.val, h⟩ := by
  obtain ⟨-, -, -, -, e0, e1, -, -, -, -⟩ := idx_edge t
  funext k
  show (iblk0 V c 2 t : Vec Ideal S4000x128 .f32) (ix2 p k) = (V c main_arg1 : S640000x128.Idx → EReal) (ix2 ⟨4000 * t.val + p.val, h⟩ k)
  unfold iblk0
  rw [View.read_apply]
  show (V c main_arg1 : S640000x128.Idx → EReal) _ = (V c main_arg1 : S640000x128.Idx → EReal) _
  refine congrArg (V c main_arg1 : S640000x128.Idx → EReal) (funext fun a => Fin.ext ?_)
  match a with
  | ⟨0, _⟩ => show win0_2.index t (0 : Fin 2) * 4000 + 1 * p.val = 4000 * t.val + p.val; rw [e0]; omega
  | ⟨1, _⟩ => show win0_2.index t (1 : Fin 2) * 128 + 1 * k.val = k.val; rw [e1]; omega

/-- Every point's block of a weight or bias operand is the whole operand (twelve operands). -/
private theorem whole3 (c : Dev nD) (t : Fin cfg0.N) :
    (iblk0 V c 3 t : Vec Ideal S128x128 .f32) = (V c main_v6 : S128x128.Idx → EReal) := by
  obtain ⟨e0, e1, -, -, -, -, -, -, -, -, -, -, -, -, -, -, -, -, -, -, -, -, -, -⟩ := idx_whole t
  funext j
  unfold iblk0
  rw [View.read_apply]
  show (V c main_v6 : S128x128.Idx → EReal) _ = (V c main_v6 : S128x128.Idx → EReal) j
  refine congrArg (V c main_v6 : S128x128.Idx → EReal) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

private theorem whole4 (c : Dev nD) (t : Fin cfg0.N) :
    (iblk0 V c 4 t : Vec Ideal S128x128 .f32) = (V c main_v7 : S128x128.Idx → EReal) := by
  obtain ⟨-, -, e0, e1, -, -, -, -, -, -, -, -, -, -, -, -, -, -, -, -, -, -, -, -⟩ := idx_whole t
  funext j
  unfold iblk0
  rw [View.read_apply]
  show (V c main_v7 : S128x128.Idx → EReal) _ = (V c main_v7 : S128x128.Idx → EReal) j
  refine congrArg (V c main_v7 : S128x128.Idx → EReal) (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

private theorem whole5 (c : Dev nD) (t : Fin cfg0.N) :
    (iblk0 V c 5 t : Vec Ideal S128x128 .f32) = (V c main_v8 : S128x128.Idx → EReal) := by
  obtain ⟨-, -, -, -, e0, e1, -, -, -, -, -, -, -, -, -, -, -, -, -, -, -, -, -, -⟩ := idx_whole t
  funext j
  unfold iblk0
  rw [View.read_apply]
  show (V c main_v8 : S128x128.Idx → EReal) _ = (V c main_v8 : S128x128.Idx → EReal) j
  refine congrArg (V c main_v8 : S128x128.Idx → EReal) (funext fun a => Fin.ext ?_)
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

private theorem whole6 (c : Dev nD) (t : Fin cfg0.N) :
    (iblk0 V c 6 t : Vec Ideal S1x128 .f32) = (V c main_v9 : S1x128.Idx → EReal) := by
  obtain ⟨-, -, -, -, -, -, e0, e1, -, -, -, -, -, -, -, -, -, -, -, -, -, -, -, -⟩ := idx_whole t
  funext j
  unfold iblk0
  rw [View.read_apply]
  show (V c main_v9 : S1x128.Idx → EReal) _ = (V c main_v9 : S1x128.Idx → EReal) j
  refine congrArg (V c main_v9 : S1x128.Idx → EReal) (funext fun a => Fin.ext ?_)
  match a with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

private theorem whole7 (c : Dev nD) (t : Fin cfg0.N) :
    (iblk0 V c 7 t : Vec Ideal S128x128 .f32) = (V c main_arg5 : S128x128.Idx → EReal) := by
  obtain ⟨-, -, -, -, -, -, -, -, e0, e1, -, -, -, -, -, -, -, -, -, -, -, -, -, -⟩ := idx_whole t
  funext j
  unfold iblk0
  rw [View.read_apply]
  show (V c main_arg5 : S128x128.Idx → EReal) _ = (V c main_arg5 : S128x128.Idx → EReal) j
  refine congrArg (V c main_arg5 : S128x128.Idx → EReal) (funext fun a => Fin.ext ?_)
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

private theorem whole8 (c : Dev nD) (t : Fin cfg0.N) :
    (iblk0 V c 8 t : Vec Ideal S1x128 .f32) = (V c main_v10 : S1x128.Idx → EReal) := by
  obtain ⟨-, -, -, -, -, -, -, -, -, -, e0, e1, -, -, -, -, -, -, -, -, -, -, -, -⟩ := idx_whole t
  funext j
  unfold iblk0
  rw [View.read_apply]
  show (V c main_v10 : S1x128.Idx → EReal) _ = (V c main_v10 : S1x128.Idx → EReal) j
  refine congrArg (V c main_v10 : S1x128.Idx → EReal) (funext fun a => Fin.ext ?_)
  match a with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

private theorem whole9 (c : Dev nD) (t : Fin cfg0.N) :
    (iblk0 V c 9 t : Vec Ideal S128x128 .f32) = (V c main_arg7 : S128x128.Idx → EReal) := by
  obtain ⟨-, -, -, -, -, -, -, -, -, -, -, -, e0, e1, -, -, -, -, -, -, -, -, -, -⟩ := idx_whole t
  funext j
  unfold iblk0
  rw [View.read_apply]
  show (V c main_arg7 : S128x128.Idx → EReal) _ = (V c main_arg7 : S128x128.Idx → EReal) j
  refine congrArg (V c main_arg7 : S128x128.Idx → EReal) (funext fun a => Fin.ext ?_)
  match a with
  | ⟨0, _⟩ => show win0_9.index t (0 : Fin 2) * 128 + 1 * (j 0).val = (j 0).val; rw [e0]; omega
  | ⟨1, _⟩ => show win0_9.index t (1 : Fin 2) * 128 + 1 * (j 1).val = (j 1).val; rw [e1]; omega

private theorem whole10 (c : Dev nD) (t : Fin cfg0.N) :
    (iblk0 V c 10 t : Vec Ideal S1x128 .f32) = (V c main_v11 : S1x128.Idx → EReal) := by
  obtain ⟨-, -, -, -, -, -, -, -, -, -, -, -, -, -, e0, e1, -, -, -, -, -, -, -, -⟩ := idx_whole t
  funext j
  unfold iblk0
  rw [View.read_apply]
  show (V c main_v11 : S1x128.Idx → EReal) _ = (V c main_v11 : S1x128.Idx → EReal) j
  refine congrArg (V c main_v11 : S1x128.Idx → EReal) (funext fun a => Fin.ext ?_)
  match a with
  | ⟨0, _⟩ => show win0_10.index t (0 : Fin 2) * 1 + 1 * (j 0).val = (j 0).val; rw [e0]; omega
  | ⟨1, _⟩ => show win0_10.index t (1 : Fin 2) * 128 + 1 * (j 1).val = (j 1).val; rw [e1]; omega

private theorem whole11 (c : Dev nD) (t : Fin cfg0.N) :
    (iblk0 V c 11 t : Vec Ideal S128x128 .f32) = (V c main_arg9 : S128x128.Idx → EReal) := by
  obtain ⟨-, -, -, -, -, -, -, -, -, -, -, -, -, -, -, -, e0, e1, -, -, -, -, -, -⟩ := idx_whole t
  funext j
  unfold iblk0
  rw [View.read_apply]
  show (V c main_arg9 : S128x128.Idx → EReal) _ = (V c main_arg9 : S128x128.Idx → EReal) j
  refine congrArg (V c main_arg9 : S128x128.Idx → EReal) (funext fun a => Fin.ext ?_)
  match a with
  | ⟨0, _⟩ => show win0_11.index t (0 : Fin 2) * 128 + 1 * (j 0).val = (j 0).val; rw [e0]; omega
  | ⟨1, _⟩ => show win0_11.index t (1 : Fin 2) * 128 + 1 * (j 1).val = (j 1).val; rw [e1]; omega

private theorem whole12 (c : Dev nD) (t : Fin cfg0.N) :
    (iblk0 V c 12 t : Vec Ideal S1x128 .f32) = (V c main_v12 : S1x128.Idx → EReal) := by
  obtain ⟨-, -, -, -, -, -, -, -, -, -, -, -, -, -, -, -, -, -, e0, e1, -, -, -, -⟩ := idx_whole t
  funext j
  unfold iblk0
  rw [View.read_apply]
  show (V c main_v12 : S1x128.Idx → EReal) _ = (V c main_v12 : S1x128.Idx → EReal) j
  refine congrArg (V c main_v12 : S1x128.Idx → EReal) (funext fun a => Fin.ext ?_)
  match a with
  | ⟨0, _⟩ => show win0_12.index t (0 : Fin 2) * 1 + 1 * (j 0).val = (j 0).val; rw [e0]; omega
  | ⟨1, _⟩ => show win0_12.index t (1 : Fin 2) * 128 + 1 * (j 1).val = (j 1).val; rw [e1]; omega

private theorem whole13 (c : Dev nD) (t : Fin cfg0.N) :
    (iblk0 V c 13 t : Vec Ideal S1x128 .f32) = (V c main_v13 : S1x128.Idx → EReal) := by
  obtain ⟨-, -, -, -, -, -, -, -, -, -, -, -, -, -, -, -, -, -, -, -, e0, e1, -, -⟩ := idx_whole t
  funext j
  unfold iblk0
  rw [View.read_apply]
  show (V c main_v13 : S1x128.Idx → EReal) _ = (V c main_v13 : S1x128.Idx → EReal) j
  refine congrArg (V c main_v13 : S1x128.Idx → EReal) (funext fun a => Fin.ext ?_)
  match a with
  | ⟨0, _⟩ => show win0_13.index t (0 : Fin 2) * 1 + 1 * (j 0).val = (j 0).val; rw [e0]; omega
  | ⟨1, _⟩ => show win0_13.index t (1 : Fin 2) * 128 + 1 * (j 1).val = (j 1).val; rw [e1]; omega

private theorem whole14 (c : Dev nD) (t : Fin cfg0.N) :
    (iblk0 V c 14 t : Vec Ideal S1x128 .f32) = (V c main_v14 : S1x128.Idx → EReal) := by
  obtain ⟨-, -, -, -, -, -, -, -, -, -, -, -, -, -, -, -, -, -, -, -, -, -, e0, e1⟩ := idx_whole t
  funext j
  unfold iblk0
  rw [View.read_apply]
  show (V c main_v14 : S1x128.Idx → EReal) _ = (V c main_v14 : S1x128.Idx → EReal) j
  refine congrArg (V c main_v14 : S1x128.Idx → EReal) (funext fun a => Fin.ext ?_)
  match a with
  | ⟨0, _⟩ => show win0_14.index t (0 : Fin 2) * 1 + 1 * (j 0).val = (j 0).val; rw [e0]; omega
  | ⟨1, _⟩ => show win0_14.index t (1 : Fin 2) * 128 + 1 * (j 1).val = (j 1).val; rw [e1]; omega

/-- Where element `(p, q)` of point `t`'s block of the first result sits in its array. -/
private theorem emb15 (t : Fin cfg0.N) (p : Fin 4000) (q : Fin 128) (h : 4000 * t.val + p.val < 640000) :
    ((cfg0.win 15).blk t).view.emb (ix2 p q) = (ix2 ⟨4000 * t.val + p.val, h⟩ q : S640000x128.Idx) := by
  obtain ⟨-, -, -, -, -, -, e0, e1, -, -⟩ := idx_edge t
  funext a; apply Fin.ext
  match a with
  | ⟨0, _⟩ => show win0_15.index t (0 : Fin 2) * 4000 + 1 * p.val = 4000 * t.val + p.val; rw [e0]; omega
  | ⟨1, _⟩ => show win0_15.index t (1 : Fin 2) * 128 + 1 * q.val = q.val; rw [e1]; omega

/-- The same for the second result. -/
private theorem emb16 (t : Fin cfg0.N) (p : Fin 4000) (q : Fin 128) (h : 4000 * t.val + p.val < 640000) :
    ((cfg0.win 16).blk t).view.emb (ix2 p q) = (ix2 ⟨4000 * t.val + p.val, h⟩ q : S640000x128.Idx) := by
  obtain ⟨-, -, -, -, -, -, -, -, e0, e1⟩ := idx_edge t
  funext a; apply Fin.ext
  match a with
  | ⟨0, _⟩ => show win0_16.index t (0 : Fin 2) * 4000 + 1 * p.val = 4000 * t.val + p.val; rw [e0]; omega
  | ⟨1, _⟩ => show win0_16.index t (1 : Fin 2) * 128 + 1 * q.val = q.val; rw [e1]; omega

/-- The first result as one function of the entry contents: entry `(r, q)` is feature `q` of the updated edge `r`. -/
private def updArr (c : Dev nD) : S640000x128.Idx → EReal :=
  fun i => updRow V c ⟨(i 0).val, idx2_lt0 i⟩ ⟨(i 1).val, idx2_lt1 i⟩

/-- The second result likewise: the edge's own entry plus the update's. -/
private def outArr (c : Dev nD) : S640000x128.Idx → EReal :=
  fun i => rowOf (n := 640000) (V c main_arg1) ⟨(i 0).val, idx2_lt0 i⟩ ⟨(i 1).val, idx2_lt1 i⟩ + updArr V c i

/-- What point `t` writes back to the first result is block `t` of `updArr`. -/
private theorem flushed15_eq (c : Dev nD) (t : Fin cfg0.N) :
    (dat0 (F := Ideal) V c).flushed 15 t = ((cfg0.win 15).blk t).view.read (Elt Ideal) (updArr V c) := by
  show (cfg0.win 15).cut (grid0.coords t) ((dat0 (F := Ideal) V c).after 15 t) = _
  rw [after0_15]
  unfold out0_15
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  have ht : t.val < 160 := lt_of_lt_of_eq t.isLt N_0
  have hrow : 4000 * t.val + p.val < 640000 := by omega
  refine (updBlock_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p q).trans ?_
  rw [rows0 V c t p hrow, rows1 V c t p hrow, rows2 V c t p hrow, whole3 V c t, whole4 V c t, whole5 V c t, whole6 V c t, whole7 V c t, whole8 V c t, whole9 V c t, whole10 V c t, whole11 V c t, whole12 V c t, whole13 V c t, whole14 V c t]
  show _ = updArr V c (((cfg0.win 15).blk t).view.emb (ix2 p q))
  rw [emb15 t p q hrow]
  rfl

/-- What point `t` writes back to the second result is block `t` of `outArr`. -/
private theorem flushed16_eq (c : Dev nD) (t : Fin cfg0.N) :
    (dat0 (F := Ideal) V c).flushed 16 t = ((cfg0.win 16).blk t).view.read (Elt Ideal) (outArr V c) := by
  show (cfg0.win 16).cut (grid0.coords t) ((dat0 (F := Ideal) V c).after 16 t) = _
  rw [after0_16]
  unfold out0_16
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  have ht : t.val < 160 := lt_of_lt_of_eq t.isLt N_0
  have hrow : 4000 * t.val + p.val < 640000 := by omega
  refine (outBlock_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p q).trans ?_
  rw [rows0 V c t p hrow, rows1 V c t p hrow, rows2 V c t p hrow, whole3 V c t, whole4 V c t, whole5 V c t, whole6 V c t, whole7 V c t, whole8 V c t, whole9 V c t, whole10 V c t, whole11 V c t, whole12 V c t, whole13 V c t, whole14 V c t]
  show _ = outArr V c (((cfg0.win 16).blk t).view.emb (ix2 p q))
  rw [emb16 t p q hrow]
  rfl

/-- An index of the first result's array is in point `t`'s block iff each coordinate is in the block's range. -/
private theorem mem_blk15 (t : Fin cfg0.N) (i : S640000x128.Idx) :
    i ∈ ((cfg0.win 15).blk t).view.set ↔ ∀ a : Fin 2, win0_15.index t a * S4000x128.size a ≤ (i a).val ∧ (i a).val < win0_15.index t a * S4000x128.size a + S4000x128.size a := by
  show i ∈ ((View.whole main_v15_0).slice (win0_15.rect t)).set ↔ _
  rw [View.set_slice_whole, Rect.mem_set_unit]
  exact Iff.rfl

private theorem mem_blk16 (t : Fin cfg0.N) (i : S640000x128.Idx) :
    i ∈ ((cfg0.win 16).blk t).view.set ↔ ∀ a : Fin 2, win0_16.index t a * S4000x128.size a ≤ (i a).val ∧ (i a).val < win0_16.index t a * S4000x128.size a + S4000x128.size a := by
  show i ∈ ((View.whole main_v15_1).slice (win0_16.rect t)).set ↔ _
  rw [View.set_slice_whole, Rect.mem_set_unit]
  exact Iff.rfl

/-- Row `r` of the first result is in the block of point `r / 4000`, which writes back. -/
private theorem cover15 (i : S640000x128.Idx) :
    ∃ t : Fin cfg0.N, (cfg0.win 15).flush t = true ∧ i ∈ ((cfg0.win 15).blk t).view.set := by
  have hi0 : (i 0).val < 640000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 160) N_0.symm⟩, rfl⟩
  obtain ⟨-, -, -, -, -, -, e0, e1, -, -⟩ := idx_edge t
  refine ⟨t, flush0_15 t, ?_⟩
  rw [mem_blk15]
  intro a
  match a with
  | ⟨0, _⟩ => show win0_15.index t (0 : Fin 2) * 4000 ≤ (i 0).val ∧ (i 0).val < win0_15.index t (0 : Fin 2) * 4000 + 4000; rw [e0, ht]; omega
  | ⟨1, _⟩ => show win0_15.index t (1 : Fin 2) * 128 ≤ (i 1).val ∧ (i 1).val < win0_15.index t (1 : Fin 2) * 128 + 128; rw [e1]; omega

private theorem cover16 (i : S640000x128.Idx) :
    ∃ t : Fin cfg0.N, (cfg0.win 16).flush t = true ∧ i ∈ ((cfg0.win 16).blk t).view.set := by
  have hi0 : (i 0).val < 640000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 160) N_0.symm⟩, rfl⟩
  obtain ⟨-, -, -, -, -, -, -, -, e0, e1⟩ := idx_edge t
  refine ⟨t, flush0_16 t, ?_⟩
  rw [mem_blk16]
  intro a
  match a with
  | ⟨0, _⟩ => show win0_16.index t (0 : Fin 2) * 4000 ≤ (i 0).val ∧ (i 0).val < win0_16.index t (0 : Fin 2) * 4000 + 4000; rw [e0, ht]; omega
  | ⟨1, _⟩ => show win0_16.index t (1 : Fin 2) * 128 ≤ (i 1).val ∧ (i 1).val < win0_16.index t (1 : Fin 2) * 128 + 128; rw [e1]; omega

/-- The first result after the launch is `updArr` of the entry contents. -/
private theorem final15 (c : Dev nD) : (dat0 (F := Ideal) V c).arrAt 15 cfg0.N = updArr V c :=
  (dat0 (F := Ideal) V c).arrAt_eq_of_cover 15 (updArr V c) (fun t _ => flushed15_eq V c t) cover15

/-- The second result after the launch is `outArr` of the entry contents. -/
private theorem final16 (c : Dev nD) : (dat0 (F := Ideal) V c).arrAt 16 cfg0.N = outArr V c :=
  (dat0 (F := Ideal) V c).arrAt_eq_of_cover 16 (outArr V c) (fun t _ => flushed16_eq V c t) cover16

end Blocks

/-- The first result (the updated edges) after the launch, at row `p`, feature `q`. -/
theorem upd_apply (c : Dev nD) (p : Fin 640000) (q : Fin 128) :
    ((dat0 (F := Ideal) V c).arrAt 15 cfg0.N : S640000x128.Idx → EReal) (ix2 p q) = updRow V c p q :=
  congrFun (final15 V c) (ix2 p q)

/-- The second result (edge plus update) after the launch, at row `p`, feature `q`. -/
theorem out_apply (c : Dev nD) (p : Fin 640000) (q : Fin 128) :
    ((dat0 (F := Ideal) V c).arrAt 16 cfg0.N : S640000x128.Idx → EReal) (ix2 p q)
      = rowOf (n := 640000) (V c main_arg1) p q + updRow V c p q :=
  congrFun (final16 V c) (ix2 p q)

end Cert.GraphNet.EdgeRegion

end
-- ==== Proof.NodeRegion.lean ====
/-
  The node launch's result array, entry by entry, from the contents `V` the launch is entered with.

  The launch cuts the 50000 nodes into 10 blocks of 5000 rows; block `t` of the result is the body's value on block `t` of
  the node features and of the aggregated edges and on the whole weight and bias operands, and the body acts row by row:
  row `p` of the result is the node's own row plus the updated node `nodeUpdate` of row `p` of the two operands.

  First the body on a block, read at an entry (p, q): a block product into the zero accumulator is the sum over the 128
  contracted features, a lane sum is the sum over the row, a bias, gain or offset row laid over the block reads that row
  at q, a column of row statistics laid over the block reads it at p; every other operation acts entrywise, and a change
  of float format is the identity on the extended reals. Composed, row p of the body's value depends on row p of the two
  row-cut operands only, and is the node's row plus `nodeUpdate` of the two rows.
  Then from the blocks to the array: row p of point t's node, aggregate and result blocks is row 5000·t + p of the
  array, every weight and bias block is its whole array, so what point t writes back is block t of one function of the
  entry contents; row r lies in the block of point r / 5000, so the ten blocks cover the array, which therefore ends
  holding that function.
-/
import proofs.«410880_j33672543601340_1_alg».proof.Proof.Gen.KernelIdeal.Frame
import proofs.«410880_j33672543601340_1_alg».proof.Proof.RowSpec
import proofs.«410880_j33672543601340_1_alg».proof.Proof.KernelTerms
import Idealize.ShloMosaic.Lib.ValueIdx
import Idealize.ShloMosaic.Lib.ValueLayout
import Idealize.ShloMosaic.Lib.Pipeline.Value
import Idealize.ShloMosaic.PureOps.Ideal.Laws

noncomputable section

namespace Cert.GraphNet.NodeRegion

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

/-! ## The block product read at an entry -/

private theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 block times a 128×128 matrix into the zero accumulator: entry (p, q) is Σₖ l(p,k)·r(k,q). -/
private theorem mm_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotL0 _ _
    | ⟨1, _⟩ => exact (dotL1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotR0 _ _).trans hk
    | ⟨1, _⟩ => exact dotR1 _ _)
  rw [el, er]

/-- A bias row laid over the block: entry (p, q) is the bias at q. -/
private theorem bias_apply (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  refine (broadcastTo_1b_ab_apply _ broadcasts_S1x128_S5000x128 p q).trans ?_
  rw [shapeCast_self]

/-- The sum along the 128 features of row p. -/
private theorem rowsum_apply (v : FVec Ideal S5000x128 .f32) (hφ : FKind.Formats .f32) (hacc : (0x00000000#32 : BitVec 32) = 0x00000000#32) (p : Fin 5000) :
    multiReduction .add [1] S5000 v 0x00000000#32 reduces_S5000x128_S5000 hφ hacc (ix1 p) = ∑ k : Fin 128, v (ix2 p k) := by
  refine (Ideal.multiReduction_add_single v 0x00000000#32 reduces_S5000x128_S5000 hφ hacc (ix1 p)).trans ?_
  refine Finset.sum_congr rfl fun k _ => congrArg v (funext fun a => Fin.ext ?_)
  match a with
  | ⟨0, _⟩ => rfl
  | ⟨1, _⟩ => rfl

/-- A length-5000 vector as a column: entry (p, ·) is the vector at p. -/
private theorem col_apply (v : FVec Ideal S5000 .f32) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_two, Shape.rowMajor_val_one]
    show p.val = p.val * 1 + u.val
    omega)

/-- A column laid over the block: entry (p, q) is the column at p. -/
private theorem colbcast_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-! ## The body's stages, named -/

/-- The first layer's pre-activation on a block: node rows times their matrix, plus aggregate rows times theirs, plus the bias. -/
private def preK (x0 x1 : Vec Ideal S5000x128 .f32) (w0 w1 : Vec Ideal S128x128 .f32) (b0 : Vec Ideal S1x128 .f32) : FVec Ideal S5000x128 .f32 :=
  addf (addf
      (matmul dot_S5000x128_S128x128_S5000x128_1_0_0_1_n_n none (truncf .bf16 x0 bitsLt_bf16_f32)
        (truncf .bf16 (shapeCast S128x128 w0 shapeCasts_S128x128_S128x128) bitsLt_bf16_f32) (constant S5000x128 .f32 0x00000000#32))
      (matmul dot_S5000x128_S128x128_S5000x128_1_0_0_1_n_n none (truncf .bf16 (shapeCast S5000x128 x1 shapeCasts_S5000x128_S5000x128) bitsLt_bf16_f32)
        (truncf .bf16 (shapeCast S128x128 w1 shapeCasts_S128x128_S128x128) bitsLt_bf16_f32) (constant S5000x128 .f32 0x00000000#32)))
    (broadcastTo S5000x128 (shapeCast S1x128 b0 shapeCasts_S1x128_S1x128) broadcasts_S1x128_S5000x128)

/-- The rectified block times a matrix. -/
private def reluMulK (h : FVec Ideal S5000x128 .f32) (w : Vec Ideal S128x128 .f32) : FVec Ideal S5000x128 .f32 :=
  matmul dot_S5000x128_S128x128_S5000x128_1_0_0_1_n_n none
    (truncf .bf16 (maximumf h (broadcast S5000x128 (Scalar.ofBits (F := Ideal) .f32 0x00000000#32))) bitsLt_bf16_f32)
    (truncf .bf16 w bitsLt_bf16_f32) (constant S5000x128 .f32 0x00000000#32)

/-- A bias row added to a block. -/
private def addBiasK (h : FVec Ideal S5000x128 .f32) (b : Vec Ideal S1x128 .f32) : FVec Ideal S5000x128 .f32 :=
  addf h (broadcastTo S5000x128 (shapeCast S1x128 b shapeCasts_S1x128_S1x128) broadcasts_S1x128_S5000x128)

/-- The column of row means of a block. -/
private def meanK (h : FVec Ideal S5000x128 .f32) : FVec Ideal S5000x1 .f32 :=
  divf (shapeCast S5000x1 (multiReduction .add [1] S5000 h 0x00000000#32 reduces_S5000x128_S5000 (.inl rfl) rfl) shapeCasts_S5000_S5000x1)
    (broadcast S5000x1 (Scalar.ofBits (F := Ideal) .f32 0x43000000#32))

/-- A block less its row means. -/
private def centredK (h : FVec Ideal S5000x128 .f32) : FVec Ideal S5000x128 .f32 :=
  subf h (broadcastTo S5000x128 (meanK h) broadcasts_S5000x1_S5000x128)

/-- The normalised block times the gain plus the offset. -/
private def normK (h : FVec Ideal S5000x128 .f32) (g be : Vec Ideal S1x128 .f32) : FVec Ideal S5000x128 .f32 :=
  addf (mulf (mulf (centredK h)
        (broadcastTo S5000x128 (rsqrt (addf (meanK (mulf (centredK h) (centredK h))) (broadcast S5000x1 (Scalar.ofBits (F := Ideal) .f32 0x3727C5AC#32))))
          broadcasts_S5000x1_S5000x128))
      (broadcastTo S5000x128 (shapeCast S1x128 g shapeCasts_S1x128_S1x128) broadcasts_S1x128_S5000x128))
    (broadcastTo S5000x128 (shapeCast S1x128 be shapeCasts_S1x128_S1x128) broadcasts_S1x128_S5000x128)

/-- The body's two payloads are these stages composed. -/
private theorem pay_eq_stages (x0 x1 : Vec Ideal S5000x128 .f32) (w0 w1 : Vec Ideal S128x128 .f32) (b0 : Vec Ideal S1x128 .f32)
    (wA : Vec Ideal S128x128 .f32) (bA : Vec Ideal S1x128 .f32) (wB : Vec Ideal S128x128 .f32) (bB : Vec Ideal S1x128 .f32)
    (wC : Vec Ideal S128x128 .f32) (bC g be : Vec Ideal S1x128 .f32) :
    k1_pay2 (F := Ideal) x0 (k1_pay1 (F := Ideal) x0 x1 w0 w1 b0 wA bA wB) bB wC bC g be
      = addf x0 (normK (addBiasK (reluMulK (addBiasK (reluMulK (addBiasK (reluMulK (preK x0 x1 w0 w1 b0) wA) bA) wB) bB) wC) bC) g be) := rfl

/-! ## The stages read at an entry -/

private theorem preK_apply (x0 x1 : Vec Ideal S5000x128 .f32) (w0 w1 : Vec Ideal S128x128 .f32) (b0 : Vec Ideal S1x128 .f32) (p : Fin 5000) (q : Fin 128) :
    preK x0 x1 w0 w1 b0 (ix2 p q)
      = (vecMat (fun k => x0 (ix2 p k)) (matOf w0) q + vecMat (fun k => x1 (ix2 p k)) (matOf w1) q) + vecOf b0 q := by
  unfold preK
  refine congrArg₂ (· + ·) (congrArg₂ (· + ·) ?_ ?_) (bias_apply b0 p q)
  · refine (mm_apply _ _ p q).trans ?_
    rw [shapeCast_self]
    rfl
  · refine (mm_apply _ _ p q).trans ?_
    rw [shapeCast_self, shapeCast_self]
    rfl

private theorem reluMulK_apply (h : FVec Ideal S5000x128 .f32) (w : Vec Ideal S128x128 .f32) (r : Row) (p : Fin 5000) (q : Fin 128)
    (hr : ∀ k, h (ix2 p k) = r k) : reluMulK h w (ix2 p q) = vecMat (relu r) (matOf w) q := by
  unfold reluMulK
  refine (mm_apply _ _ p q).trans ?_
  refine Finset.sum_congr rfl fun k _ => ?_
  show max (h (ix2 p k)) (Ideal.ofBits .f32 0x00000000#32) * w (ix2 k q) = max (r k) wZero * w (ix2 k q)
  rw [hr k]
  rfl

private theorem addBiasK_apply (h : FVec Ideal S5000x128 .f32) (b : Vec Ideal S1x128 .f32) (v : EReal) (p : Fin 5000) (q : Fin 128)
    (hv : h (ix2 p q) = v) : addBiasK h b (ix2 p q) = v + vecOf b q := by
  unfold addBiasK
  exact congrArg₂ (· + ·) hv (bias_apply b p q)

private theorem meanK_apply (h : FVec Ideal S5000x128 .f32) (r : Row) (p : Fin 5000) (u : Fin 1)
    (hr : ∀ k, h (ix2 p k) = r k) : meanK h (ix2 p u) = rowMean r := by
  unfold meanK
  show Ideal.div _ (Ideal.ofBits .f32 0x43000000#32) = Ideal.div _ wWidth
  refine congrArg (Ideal.div · (Ideal.ofBits .f32 0x43000000#32)) ?_
  refine (col_apply _ p u).trans ?_
  refine (rowsum_apply h _ _ p).trans ?_
  exact Finset.sum_congr rfl fun k _ => hr k

private theorem centredK_apply (h : FVec Ideal S5000x128 .f32) (r : Row) (p : Fin 5000) (q : Fin 128)
    (hr : ∀ k, h (ix2 p k) = r k) : centredK h (ix2 p q) = centred r q := by
  unfold centredK
  show h (ix2 p q) - _ = r q - rowMean r
  refine congrArg₂ (· - ·) (hr q) ?_
  refine (colbcast_apply _ p q).trans ?_
  exact meanK_apply h r p 0 hr

private theorem normK_apply (h : FVec Ideal S5000x128 .f32) (g be : Vec Ideal S1x128 .f32) (r : Row) (p : Fin 5000) (q : Fin 128)
    (hr : ∀ k, h (ix2 p k) = r k) : normK h g be (ix2 p q) = layerNorm r (vecOf g) (vecOf be) q := by
  unfold normK
  show _ * _ * _ + _ = centred r q * Ideal.rsqrt (rowMean (fun k => centred r k * centred r k) + wEps) * vecOf g q + vecOf be q
  refine congrArg₂ (· + ·) (congrArg₂ (· * ·) (congrArg₂ (· * ·) (centredK_apply h r p q hr) ?_) (bias_apply g p q)) (bias_apply be p q)
  refine (colbcast_apply _ p q).trans ?_
  show Ideal.rsqrt (_ + Ideal.ofBits .f32 0x3727C5AC#32) = Ideal.rsqrt (_ + wEps)
  refine congrArg (fun z => Ideal.rsqrt (z + Ideal.ofBits .f32 0x3727C5AC#32)) ?_
  refine meanK_apply _ _ p 0 fun k => ?_
  show centredK h (ix2 p k) * centredK h (ix2 p k) = _
  rw [centredK_apply h r p k hr]

/-- THE BODY AT AN ENTRY: row p of the result block is the node's own row plus the updated node of row p of the two
    operand blocks. -/
private theorem pay_apply (x0 x1 : Vec Ideal S5000x128 .f32) (w0 w1 : Vec Ideal S128x128 .f32) (b0 : Vec Ideal S1x128 .f32)
    (wA : Vec Ideal S128x128 .f32) (bA : Vec Ideal S1x128 .f32) (wB : Vec Ideal S128x128 .f32) (bB : Vec Ideal S1x128 .f32)
    (wC : Vec Ideal S128x128 .f32) (bC g be : Vec Ideal S1x128 .f32) (p : Fin 5000) (q : Fin 128) :
    k1_pay2 (F := Ideal) x0 (k1_pay1 (F := Ideal) x0 x1 w0 w1 b0 wA bA wB) bB wC bC g be (ix2 p q)
      = x0 (ix2 p q) + nodeUpdate (fun k => x0 (ix2 p k)) (fun k => x1 (ix2 p k)) (matOf w0) (matOf w1) (vecOf b0)
          (matOf wA) (vecOf bA) (matOf wB) (vecOf bB) (matOf wC) (vecOf bC) (vecOf g) (vecOf be) q := by
  rw [pay_eq_stages]
  show x0 (ix2 p q) + _ = _
  refine congrArg (x0 (ix2 p q) + ·) ?_
  unfold nodeUpdate mlpTail
  refine normK_apply _ g be _ p q fun k3 => ?_
  refine addBiasK_apply _ bC _ p k3 ?_
  refine reluMulK_apply _ wC _ p k3 fun k2 => ?_
  refine addBiasK_apply _ bB _ p k2 ?_
  refine reluMulK_apply _ wB _ p k2 fun k1 => ?_
  refine addBiasK_apply _ bA _ p k1 ?_
  refine reluMulK_apply _ wA _ p k1 fun k0 => ?_
  exact preK_apply x0 x1 w0 w1 b0 p k0

/-! ## From the blocks to the array -/

variable (V : (c : Dev nD) → (b : Ref sig .tc) → Buf (Elt Ideal) ((c : Thread nD τ).loc b))

/-- The updated features of node `p`, from the launch's operands as entered. -/
def updRow (c : Dev nD) (p : Fin 50000) : Row :=
  nodeUpdate (rowOf (n := 50000) (V c main_arg0) p) (rowOf (n := 50000) (V c main_v18) p)
    (matOf (V c main_v19)) (matOf (V c main_v20)) (vecOf (V c main_v21))
    (matOf (V c main_arg15)) (vecOf (V c main_v22)) (matOf (V c main_arg17)) (vecOf (V c main_v23))
    (matOf (V c main_arg19)) (vecOf (V c main_v24)) (vecOf (V c main_v25)) (vecOf (V c main_v26))

private theorem zeroOff : (![0, 0] : Fin 2 → Nat) = fun _ => 0 := funext fun a => by fin_cases a <;> rfl

/-- The whole result array as one function of the operands as entered: entry (r, q) is the node's own feature plus the
    updated node's. -/
private def resultArr (c : Dev nD) : S50000x128.Idx → EReal := fun i =>
  rowOf (n := 50000) (V c main_arg0) ⟨(i 0).val, idx2_lt0 i⟩ ⟨(i 1).val, idx2_lt1 i⟩
    + updRow V c ⟨(i 0).val, idx2_lt0 i⟩ ⟨(i 1).val, idx2_lt1 i⟩

/-- The index maps over the ten points: the node, aggregate and result blocks at point t are block t of their arrays'
    rows; every weight and bias block is its whole array. -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_13.index t (0 : Fin 2) = t.val ∧ win1_13.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

/-- Some point's block index is any given one of the ten. -/
private theorem idx_onto : ∀ b : Fin 10, ∃ t : Fin cfg1.N, win1_13.index t (0 : Fin 2) = b.val ∧ win1_13.index t (1 : Fin 2) = 0 :=
  (by decide +kernel : ∀ b : Fin 10, ∃ t : Fin grid1.N, win1_13.index t (0 : Fin 2) = b.val ∧ win1_13.index t (1 : Fin 2) = 0)

private theorem point_lt (t : Fin cfg1.N) : t.val < 10 := by
  have h : cfg1.N = 10 := N_1
  have := t.isLt
  omega

/-- Row p of the node block at point t is row 5000·t + p of the node features. -/
private theorem nodeBlk_apply (c : Dev nD) (t : Fin cfg1.N) (p : Fin 5000) (q : Fin 128) :
    (iblk1 (F := Ideal) V c 0 t : Vec Ideal S5000x128 .f32) (ix2 p q)
      = rowOf (n := 50000) (V c main_arg0) ⟨5000 * t.val + p.val, by have := point_lt t; omega⟩ q := by
  obtain ⟨⟨e0, e1⟩, -⟩ := idx_facts t
  unfold iblk1
  rw [View.read_apply]
  show (V c main_arg0 : S50000x128.Idx → EReal) (((cfg1.win 0).blk t).view.emb (ix2 p q)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

/-- Row p of the aggregate block at point t is row 5000·t + p of the aggregated edges. -/
private theorem aggBlk_apply (c : Dev nD) (t : Fin cfg1.N) (p : Fin 5000) (q : Fin 128) :
    (iblk1 (F := Ideal) V c 1 t : Vec Ideal S5000x128 .f32) (ix2 p q)
      = rowOf (n := 50000) (V c main_v18) ⟨5000 * t.val + p.val, by have := point_lt t; omega⟩ q := by
  obtain ⟨-, ⟨e0, e1⟩, -⟩ := idx_facts t
  unfold iblk1
  rw [View.read_apply]
  show (V c main_v18 : S50000x128.Idx → EReal) (((cfg1.win 1).blk t).view.emb (ix2 p q)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * q.val = q.val; omega

/-- Each weight and bias window's one block is its whole array. -/
private theorem wholeBlk2 (c : Dev nD) (t : Fin cfg1.N) :
    (iblk1 (F := Ideal) V c 2 t : Vec Ideal S128x128 .f32) = (V c main_v19 : S128x128.Idx → EReal) := by
  obtain ⟨-, -, -, ⟨e0, e1⟩, -⟩ := idx_facts t
  unfold iblk1
  funext j
  rw [View.read_apply]
  show (V c main_v19 : S128x128.Idx → EReal) (((cfg1.win 2).blk t).view.emb j) = _
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega
private theorem wholeBlk3 (c : Dev nD) (t : Fin cfg1.N) :
    (iblk1 (F := Ideal) V c 3 t : Vec Ideal S128x128 .f32) = (V c main_v20 : S128x128.Idx → EReal) := by
  obtain ⟨-, -, -, -, ⟨e0, e1⟩, -⟩ := idx_facts t
  unfold iblk1
  funext j
  rw [View.read_apply]
  show (V c main_v20 : S128x128.Idx → EReal) (((cfg1.win 3).blk t).view.emb j) = _
  refine congrArg _ (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega
private theorem wholeBlk4 (c : Dev nD) (t : Fin cfg1.N) :
    (iblk1 (F := Ideal) V c 4 t : Vec Ideal S1x128 .f32) = (V c main_v21 : S1x128.Idx → EReal) := by
  obtain ⟨-, -, -, -, -, ⟨e0, e1⟩, -⟩ := idx_facts t
  unfold iblk1
  funext j
  rw [View.read_apply]
  show (V c main_v21 : S1x128.Idx → EReal) (((cfg1.win 4).blk t).view.emb j) = _
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega
private theorem wholeBlk5 (c : Dev nD) (t : Fin cfg1.N) :
    (iblk1 (F := Ideal) V c 5 t : Vec Ideal S128x128 .f32) = (V c main_arg15 : S128x128.Idx → EReal) := by
  obtain ⟨-, -, -, -, -, -, ⟨e0, e1⟩, -⟩ := idx_facts t
  unfold iblk1
  funext j
  rw [View.read_apply]
  show (V c main_arg15 : S128x128.Idx → EReal) (((cfg1.win 5).blk t).view.emb j) = _
  refine congrArg _ (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega
private theorem wholeBlk6 (c : Dev nD) (t : Fin cfg1.N) :
    (iblk1 (F := Ideal) V c 6 t : Vec Ideal S1x128 .f32) = (V c main_v22 : S1x128.Idx → EReal) := by
  obtain ⟨-, -, -, -, -, -, -, ⟨e0, e1⟩, -⟩ := idx_facts t
  unfold iblk1
  funext j
  rw [View.read_apply]
  show (V c main_v22 : S1x128.Idx → EReal) (((cfg1.win 6).blk t).view.emb j) = _
  refine congrArg _ (funext fun a => Fin.ext ?_)
  match a with
  | ⟨0, _⟩ => show win1_6.index t (0 : Fin 2) * 1 + 1 * (j 0).val = (j 0).val; omega
  | ⟨1, _⟩ => show win1_6.index t (1 : Fin 2) * 128 + 1 * (j 1).val = (j 1).val; omega
private theorem wholeBlk7 (c : Dev nD) (t : Fin cfg1.N) :
    (iblk1 (F := Ideal) V c 7 t : Vec Ideal S128x128 .f32) = (V c main_arg17 : S128x128.Idx → EReal) := by
  obtain ⟨-, -, -, -, -, -, -, -, ⟨e0, e1⟩, -⟩ := idx_facts t
  unfold iblk1
  funext j
  rw [View.read_apply]
  show (V c main_arg17 : S128x128.Idx → EReal) (((cfg1.win 7).blk t).view.emb j) = _
  refine congrArg _ (funext fun a => Fin.ext ?_)
  match a with
  | ⟨0, _⟩ => show win1_7.index t (0 : Fin 2) * 128 + 1 * (j 0).val = (j 0).val; omega
  | ⟨1, _⟩ => show win1_7.index t (1 : Fin 2) * 128 + 1 * (j 1).val = (j 1).val; omega
private theorem wholeBlk8 (c : Dev nD) (t : Fin cfg1.N) :
    (iblk1 (F := Ideal) V c 8 t : Vec Ideal S1x128 .f32) = (V c main_v23 : S1x128.Idx → EReal) := by
  obtain ⟨-, -, -, -, -, -, -, -, -, ⟨e0, e1⟩, -⟩ := idx_facts t
  unfold iblk1
  funext j
  rw [View.read_apply]
  show (V c main_v23 : S1x128.Idx → EReal) (((cfg1.win 8).blk t).view.emb j) = _
  refine congrArg _ (funext fun a => Fin.ext ?_)
  match a with
  | ⟨0, _⟩ => show win1_8.index t (0 : Fin 2) * 1 + 1 * (j 0).val = (j 0).val; omega
  | ⟨1, _⟩ => show win1_8.index t (1 : Fin 2) * 128 + 1 * (j 1).val = (j 1).val; omega
private theorem wholeBlk9 (c : Dev nD) (t : Fin cfg1.N) :
    (iblk1 (F := Ideal) V c 9 t : Vec Ideal S128x128 .f32) = (V c main_arg19 : S128x128.Idx → EReal) := by
  obtain ⟨-, -, -, -, -, -, -, -, -, -, ⟨e0, e1⟩, -⟩ := idx_facts t
  unfold iblk1
  funext j
  rw [View.read_apply]
  show (V c main_arg19 : S128x128.Idx → EReal) (((cfg1.win 9).blk t).view.emb j) = _
  refine congrArg _ (funext fun a => Fin.ext ?_)
  match a with
  | ⟨0, _⟩ => show win1_9.index t (0 : Fin 2) * 128 + 1 * (j 0).val = (j 0).val; omega
  | ⟨1, _⟩ => show win1_9.index t (1 : Fin 2) * 128 + 1 * (j 1).val = (j 1).val; omega
private theorem wholeBlk10 (c : Dev nD) (t : Fin cfg1.N) :
    (iblk1 (F := Ideal) V c 10 t : Vec Ideal S1x128 .f32) = (V c main_v24 : S1x128.Idx → EReal) := by
  obtain ⟨-, -, -, -, -, -, -, -, -, -, -, ⟨e0, e1⟩, -⟩ := idx_facts t
  unfold iblk1
  funext j
  rw [View.read_apply]
  show (V c main_v24 : S1x128.Idx → EReal) (((cfg1.win 10).blk t).view.emb j) = _
  refine congrArg _ (funext fun a => Fin.ext ?_)
  match a with
  | ⟨0, _⟩ => show win1_10.index t (0 : Fin 2) * 1 + 1 * (j 0).val = (j 0).val; omega
  | ⟨1, _⟩ => show win1_10.index t (1 : Fin 2) * 128 + 1 * (j 1).val = (j 1).val; omega
private theorem wholeBlk11 (c : Dev nD) (t : Fin cfg1.N) :
    (iblk1 (F := Ideal) V c 11 t : Vec Ideal S1x128 .f32) = (V c main_v25 : S1x128.Idx → EReal) := by
  obtain ⟨-, -, -, -, -, -, -, -, -, -, -, -, ⟨e0, e1⟩, -⟩ := idx_facts t
  unfold iblk1
  funext j
  rw [View.read_apply]
  show (V c main_v25 : S1x128.Idx → EReal) (((cfg1.win 11).blk t).view.emb j) = _
  refine congrArg _ (funext fun a => Fin.ext ?_)
  match a with
  | ⟨0, _⟩ => show win1_11.index t (0 : Fin 2) * 1 + 1 * (j 0).val = (j 0).val; omega
  | ⟨1, _⟩ => show win1_11.index t (1 : Fin 2) * 128 + 1 * (j 1).val = (j 1).val; omega
private theorem wholeBlk12 (c : Dev nD) (t : Fin cfg1.N) :
    (iblk1 (F := Ideal) V c 12 t : Vec Ideal S1x128 .f32) = (V c main_v26 : S1x128.Idx → EReal) := by
  obtain ⟨-, -, -, -, -, -, -, -, -, -, -, -, -, ⟨e0, e1⟩⟩ := idx_facts t
  unfold iblk1
  funext j
  rw [View.read_apply]
  show (V c main_v26 : S1x128.Idx → EReal) (((cfg1.win 12).blk t).view.emb j) = _
  refine congrArg _ (funext fun a => Fin.ext ?_)
  match a with
  | ⟨0, _⟩ => show win1_12.index t (0 : Fin 2) * 1 + 1 * (j 0).val = (j 0).val; omega
  | ⟨1, _⟩ => show win1_12.index t (1 : Fin 2) * 128 + 1 * (j 1).val = (j 1).val; omega

/-- WHAT POINT t WRITES BACK is block t of the result function. -/
private theorem flushed_eq (c : Dev nD) (t : Fin cfg1.N) :
    (dat1 (F := Ideal) V c).flushed 13 t = ((cfg1.win 13).blk t).view.read (Elt Ideal) (resultArr V c) := by
  show (cfg1.win 13).cut (grid1.coords t) ((dat1 (F := Ideal) V c).after 13 t) = _
  rw [after1_13]
  unfold out1_13
  rw [View.canon_unit_zero zeroOff]
  simp only [View.ld_unit_zero (S := S5000x128) zeroOff, View.ld_unit_zero (S := S128x128) zeroOff, View.ld_unit_zero (S := S1x128) zeroOff]
  refine funext fun (j : S5000x128.Idx) => ?_
  obtain ⟨p, q, rfl⟩ : ∃ (p : Fin 5000) (q : Fin 128), j = ix2 p q := ⟨j 0, j 1, eq_ix2 j⟩
  obtain ⟨-, -, ⟨e0, e1⟩, -⟩ := idx_facts t
  have hemb : ((cfg1.win 13).blk t).view.emb (ix2 p q) = (ix2 ⟨5000 * t.val + p.val, by have := point_lt t; omega⟩ q : S50000x128.Idx) :=
    funext fun a => Fin.ext (by
      match a with
      | ⟨0, _⟩ => show win1_13.index t (0 : Fin 2) * 5000 + 1 * p.val = 5000 * t.val + p.val; omega
      | ⟨1, _⟩ => show win1_13.index t (1 : Fin 2) * 128 + 1 * q.val = q.val; omega)
  rw [View.read_apply, hemb]
  refine (pay_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) (iblk1 (F := Ideal) V c 7 t) (iblk1 (F := Ideal) V c 8 t) (iblk1 (F := Ideal) V c 9 t) (iblk1 (F := Ideal) V c 10 t) (iblk1 (F := Ideal) V c 11 t) (iblk1 (F := Ideal) V c 12 t) p q).trans ?_
  have hn : (fun k => (iblk1 (F := Ideal) V c 0 t) (ix2 p k)) = rowOf (n := 50000) (V c main_arg0) ⟨5000 * t.val + p.val, by have := point_lt t; omega⟩ :=
    funext fun k => nodeBlk_apply V c t p k
  have ha : (fun k => (iblk1 (F := Ideal) V c 1 t) (ix2 p k)) = rowOf (n := 50000) (V c main_v18) ⟨5000 * t.val + p.val, by have := point_lt t; omega⟩ :=
    funext fun k => aggBlk_apply V c t p k
  rw [hn, ha, nodeBlk_apply V c t p q, wholeBlk2 V c t, wholeBlk3 V c t, wholeBlk4 V c t, wholeBlk5 V c t, wholeBlk6 V c t, wholeBlk7 V c t, wholeBlk8 V c t, wholeBlk9 V c t, wholeBlk10 V c t, wholeBlk11 V c t, wholeBlk12 V c t]
  rfl

/-- An entry of the array is in point t's block iff each coordinate is in the block's range on its axis. -/
private theorem mem_blk (t : Fin cfg1.N) (i : S50000x128.Idx) :
    i ∈ ((cfg1.win 13).blk t).view.set ↔ ∀ a : Fin 2, win1_13.index t a * S5000x128.size a ≤ (i a).val ∧ (i a).val < win1_13.index t a * S5000x128.size a + S5000x128.size a := by
  show i ∈ ((View.whole main_v27).slice (win1_13.rect t)).set ↔ _
  rw [View.set_slice_whole, Rect.mem_set_unit]
  exact Iff.rfl

/-- Every entry is in some point's block: row r in the block of point r / 5000. -/
private theorem covered (i : S50000x128.Idx) :
    ∃ t : Fin cfg1.N, (cfg1.win 13).flush t = true ∧ i ∈ ((cfg1.win 13).blk t).view.set := by
  have hi0 : (i 0).val < 50000 := (i 0).isLt
  have hi1 : (i 1).val < 128 := (i 1).isLt
  obtain ⟨t, q0, q1⟩ := idx_onto ⟨(i 0).val / 5000, by omega⟩
  have q0' : win1_13.index t (0 : Fin 2) = (i 0).val / 5000 := q0
  refine ⟨t, flush1_13 t, ?_⟩
  rw [mem_blk]
  intro a
  match a with
  | ⟨0, _⟩ => show win1_13.index t (0 : Fin 2) * 5000 ≤ (i 0).val ∧ (i 0).val < win1_13.index t (0 : Fin 2) * 5000 + 5000; omega
  | ⟨1, _⟩ => show win1_13.index t (1 : Fin 2) * 128 ≤ (i 1).val ∧ (i 1).val < win1_13.index t (1 : Fin 2) * 128 + 128; omega

/-- The result array after the launch is the result function. -/
private theorem final (c : Dev nD) : (dat1 (F := Ideal) V c).arrAt 13 cfg1.N = resultArr V c :=
  (dat1 (F := Ideal) V c).arrAt_eq_of_cover 13 (resultArr V c) (fun t _ => flushed_eq V c t) (covered)

/-- The result (node plus update) after the launch, at row `p`, feature `q`. -/
theorem out_apply (c : Dev nD) (p : Fin 50000) (q : Fin 128) :
    ((dat1 (F := Ideal) V c).arrAt 13 cfg1.N : S50000x128.Idx → EReal) (ix2 p q)
      = rowOf (n := 50000) (V c main_arg0) p q + updRow V c p q :=
  congrFun (final V c) (ix2 p q)

end Cert.GraphNet.NodeRegion

end
-- ==== Proof.EdgeEntry.lean ====
/-
  What the edge launch is entered with, in terms of the memory the program was launched from.

  Before the launch the host gathers the senders' and the receivers' node rows, cuts the stacked 384×128 first-layer
  matrix into its three 128-row blocks and lays each bias out as a 1×128 row. The library's `take` fills a row whose
  index is out of range with a not-a-number word; where every index names a node (`IndexInRange`) no row is filled
  and the gathered operand is the plain gather at the wrapped indices. Every other operand is an argument as launched.
  The two gathered operands are stated in EdgeGather.lean; the thirteen others here.
-/
import proofs.«410880_j33672543601340_1_alg».proof.Proof.Gen.KernelIdeal.Frame
import proofs.«410880_j33672543601340_1_alg».proof.Proof.RowSpec
import proofs.«410880_j33672543601340_1_alg».proof.Proof.KernelTerms
import Idealize.ShloMosaic.Lib.ValueIdx
import Idealize.ShloMosaic.Lib.Pipeline.Value
import Idealize.ShloMosaic.PureOps.Ideal.Laws

noncomputable section

namespace Cert.GraphNet.EdgeEntry

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)
open Cert.GraphNet.KernelTerms

variable (m : (ℓ : Loc nD τ sig) → Buf (Elt Ideal) ℓ) (ρ : Dev nD → PrngReg)

/-- A buffer none of a stretch's operations writes holds after the stretch what it held before. -/
local macro "unwritten" : tactic => `(tactic|
  exact StableHlo.after_of_forall_not_mem _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments the host stretches before the edge launch leave alone -/

private theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl
private theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten
    _ = W1 m ρ c (Proc.devRef .tc main_arg4) := by unwritten
    _ = W0 m ρ c (Proc.devRef .tc main_arg4) := by unwritten
    _ = m ((c : Thread nD τ).loc main_arg4) := rfl
private theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by unwritten
    _ = W1 m ρ c (Proc.devRef .tc main_arg6) := by unwritten
    _ = W0 m ρ c (Proc.devRef .tc main_arg6) := by unwritten
    _ = m ((c : Thread nD τ).loc main_arg6) := rfl
private theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by unwritten
    _ = W1 m ρ c (Proc.devRef .tc main_arg8) := by unwritten
    _ = W0 m ρ c (Proc.devRef .tc main_arg8) := by unwritten
    _ = m ((c : Thread nD τ).loc main_arg8) := rfl
private theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by unwritten
    _ = W1 m ρ c (Proc.devRef .tc main_arg10) := by unwritten
    _ = W0 m ρ c (Proc.devRef .tc main_arg10) := by unwritten
    _ = m ((c : Thread nD τ).loc main_arg10) := rfl
private theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by unwritten
    _ = W1 m ρ c (Proc.devRef .tc main_arg11) := by unwritten
    _ = W0 m ρ c (Proc.devRef .tc main_arg11) := by unwritten
    _ = m ((c : Thread nD τ).loc main_arg11) := rfl
private theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by unwritten
    _ = W1 m ρ c (Proc.devRef .tc main_arg12) := by unwritten
    _ = W0 m ρ c (Proc.devRef .tc main_arg12) := by unwritten
    _ = m ((c : Thread nD τ).loc main_arg12) := rfl

/-! ## What the last stretch before the launch leaves at the buffers it writes -/

private theorem v6_of (V : Valuation τ sig (Elt Ideal)) :
    (StableHlo.after hostOps0_3 V (Proc.devRef .tc main_v6) : S128x128.Idx → EReal)
      = extractStridedSlice S128x128 ![0, 0] (V (Proc.devRef .tc main_arg3) : S384x128.Idx → EReal) slices_S384x128_S128x128_0_0 := by
  after_results
private theorem v7_of (V : Valuation τ sig (Elt Ideal)) :
    (StableHlo.after hostOps0_3 V (Proc.devRef .tc main_v7) : S128x128.Idx → EReal)
      = extractStridedSlice S128x128 ![128, 0] (V (Proc.devRef .tc main_arg3) : S384x128.Idx → EReal) slices_S384x128_S128x128_128_0 := by
  after_results
private theorem v8_of (V : Valuation τ sig (Elt Ideal)) :
    (StableHlo.after hostOps0_3 V (Proc.devRef .tc main_v8) : S128x128.Idx → EReal)
      = extractStridedSlice S128x128 ![256, 0] (V (Proc.devRef .tc main_arg3) : S384x128.Idx → EReal) slices_S384x128_S128x128_256_0 := by
  after_results

private theorem v9_of (V : Valuation τ sig (Elt Ideal)) :
    (StableHlo.after hostOps0_3 V (Proc.devRef .tc main_v9) : S1x128.Idx → EReal)
      = shapeCast S1x128 (V (Proc.devRef .tc main_arg4) : S128.Idx → EReal) shapeCasts_S128_S1x128 := by
  after_results; rfl
private theorem v10_of (V : Valuation τ sig (Elt Ideal)) :
    (StableHlo.after hostOps0_3 V (Proc.devRef .tc main_v10) : S1x128.Idx → EReal)
      = shapeCast S1x128 (V (Proc.devRef .tc main_arg6) : S128.Idx → EReal) shapeCasts_S128_S1x128 := by
  after_results; rfl
private theorem v11_of (V : Valuation τ sig (Elt Ideal)) :
    (StableHlo.after hostOps0_3 V (Proc.devRef .tc main_v11) : S1x128.Idx → EReal)
      = shapeCast S1x128 (V (Proc.devRef .tc main_arg8) : S128.Idx → EReal) shapeCasts_S128_S1x128 := by
  after_results; rfl
private theorem v12_of (V : Valuation τ sig (Elt Ideal)) :
    (StableHlo.after hostOps0_3 V (Proc.devRef .tc main_v12) : S1x128.Idx → EReal)
      = shapeCast S1x128 (V (Proc.devRef .tc main_arg10) : S128.Idx → EReal) shapeCasts_S128_S1x128 := by
  after_results; rfl
private theorem v13_of (V : Valuation τ sig (Elt Ideal)) :
    (StableHlo.after hostOps0_3 V (Proc.devRef .tc main_v13) : S1x128.Idx → EReal)
      = shapeCast S1x128 (V (Proc.devRef .tc main_arg11) : S128.Idx → EReal) shapeCasts_S128_S1x128 := by
  after_results; rfl
private theorem v14_of (V : Valuation τ sig (Elt Ideal)) :
    (StableHlo.after hostOps0_3 V (Proc.devRef .tc main_v14) : S1x128.Idx → EReal)
      = shapeCast S1x128 (V (Proc.devRef .tc main_arg12) : S128.Idx → EReal) shapeCasts_S128_S1x128 := by
  after_results; rfl

/-- A 128-row slice of a 384-row array from row `o` on, read at a point. -/
private theorem slice_rows_apply (x : S384x128.Idx → EReal) (o : Nat) (ho : o + 128 ≤ 384) (hs : S384x128.Slices ![o, 0] S128x128)
    (k j : Fin 128) : extractStridedSlice S128x128 ![o, 0] x hs (ix2 k j) = x (ix2 ⟨o + k.val, by omega⟩ j) :=
  extractStridedSlice_apply ![o, 0] x hs (ix2 k j) (ix2 ⟨o + k.val, by omega⟩ j) fun a =>
    match a with
    | ⟨0, _⟩ => rfl
    | ⟨1, _⟩ => by show j.val = 0 + j.val; omega

/-- A length-128 array laid out as one row, read at a point. -/
private theorem row_cast_apply (x : S128.Idx → EReal) (j : Fin 128) :
    shapeCast S1x128 x shapeCasts_S128_S1x128 (ix2 0 j) = x (ix1 j) :=
  shapeCast_apply x shapeCasts_S128_S1x128 (ix2 0 j) (ix1 j) (by
    rw [Shape.rowMajor_val_one, Shape.rowMajor_val_two]; show j.val = 0 * 128 + j.val; omega)

/-- The edge features are the argument as launched. -/
theorem edges_rows (c : Dev nD) : (V4 m ρ c main_arg1 : S640000x128.Idx → EReal) = (m ((c : Thread nD τ).loc main_arg1)) := by
  exact calc W4 m ρ c (Proc.devRef .tc main_arg1)
    _ = W3 m ρ c (Proc.devRef .tc main_arg1) := by unwritten
    _ = W2 m ρ c (Proc.devRef .tc main_arg1) := by unwritten
    _ = W1 m ρ c (Proc.devRef .tc main_arg1) := by unwritten
    _ = W0 m ρ c (Proc.devRef .tc main_arg1) := by unwritten
    _ = m ((c : Thread nD τ).loc main_arg1) := rfl

/-- The three blocks of the stacked first-layer matrix. -/
theorem w0_senders (c : Dev nD) : matOf (V4 m ρ c main_v6) = matBlock (r := 384) (m ((c : Thread nD τ).loc main_arg3)) 0 (by omega) := by
  funext k j
  show (W4 m ρ c (Proc.devRef .tc main_v6) : S128x128.Idx → EReal) (ix2 k j) = _
  rw [show (W4 m ρ c (Proc.devRef .tc main_v6) : S128x128.Idx → EReal) = _ from v6_of (W3 m ρ c), W3_arg3,
    slice_rows_apply _ 0 (by omega)]
  rfl
theorem w0_receivers (c : Dev nD) : matOf (V4 m ρ c main_v7) = matBlock (r := 384) (m ((c : Thread nD τ).loc main_arg3)) 128 (by omega) := by
  funext k j
  show (W4 m ρ c (Proc.devRef .tc main_v7) : S128x128.Idx → EReal) (ix2 k j) = _
  rw [show (W4 m ρ c (Proc.devRef .tc main_v7) : S128x128.Idx → EReal) = _ from v7_of (W3 m ρ c), W3_arg3,
    slice_rows_apply _ 128 (by omega)]
  rfl
theorem w0_edges (c : Dev nD) : matOf (V4 m ρ c main_v8) = matBlock (r := 384) (m ((c : Thread nD τ).loc main_arg3)) 256 (by omega) := by
  funext k j
  show (W4 m ρ c (Proc.devRef .tc main_v8) : S128x128.Idx → EReal) (ix2 k j) = _
  rw [show (W4 m ρ c (Proc.devRef .tc main_v8) : S128x128.Idx → EReal) = _ from v8_of (W3 m ρ c), W3_arg3,
    slice_rows_apply _ 256 (by omega)]
  rfl

/-- The biases, gain and offset laid out as 1×128 rows. -/
theorem b0 (c : Dev nD) : vecOf (V4 m ρ c main_v9) = vec1Of (m ((c : Thread nD τ).loc main_arg4)) := by
  funext j
  show (W4 m ρ c (Proc.devRef .tc main_v9) : S1x128.Idx → EReal) (ix2 0 j) = _
  rw [show (W4 m ρ c (Proc.devRef .tc main_v9) : S1x128.Idx → EReal) = _ from v9_of (W3 m ρ c), W3_arg4, row_cast_apply]
  rfl
theorem b1 (c : Dev nD) : vecOf (V4 m ρ c main_v10) = vec1Of (m ((c : Thread nD τ).loc main_arg6)) := by
  funext j
  show (W4 m ρ c (Proc.devRef .tc main_v10) : S1x128.Idx → EReal) (ix2 0 j) = _
  rw [show (W4 m ρ c (Proc.devRef .tc main_v10) : S1x128.Idx → EReal) = _ from v10_of (W3 m ρ c), W3_arg6, row_cast_apply]
  rfl
theorem b2 (c : Dev nD) : vecOf (V4 m ρ c main_v11) = vec1Of (m ((c : Thread nD τ).loc main_arg8)) := by
  funext j
  show (W4 m ρ c (Proc.devRef .tc main_v11) : S1x128.Idx → EReal) (ix2 0 j) = _
  rw [show (W4 m ρ c (Proc.devRef .tc main_v11) : S1x128.Idx → EReal) = _ from v11_of (W3 m ρ c), W3_arg8, row_cast_apply]
  rfl
theorem b3 (c : Dev nD) : vecOf (V4 m ρ c main_v12) = vec1Of (m ((c : Thread nD τ).loc main_arg10)) := by
  funext j
  show (W4 m ρ c (Proc.devRef .tc main_v12) : S1x128.Idx → EReal) (ix2 0 j) = _
  rw [show (W4 m ρ c (Proc.devRef .tc main_v12) : S1x128.Idx → EReal) = _ from v12_of (W3 m ρ c), W3_arg10, row_cast_apply]
  rfl
theorem gain (c : Dev nD) : vecOf (V4 m ρ c main_v13) = vec1Of (m ((c : Thread nD τ).loc main_arg11)) := by
  funext j
  show (W4 m ρ c (Proc.devRef .tc main_v13) : S1x128.Idx → EReal) (ix2 0 j) = _
  rw [show (W4 m ρ c (Proc.devRef .tc main_v13) : S1x128.Idx → EReal) = _ from v13_of (W3 m ρ c), W3_arg11, row_cast_apply]
  rfl
theorem offset (c : Dev nD) : vecOf (V4 m ρ c main_v14) = vec1Of (m ((c : Thread nD τ).loc main_arg12)) := by
  funext j
  show (W4 m ρ c (Proc.devRef .tc main_v14) : S1x128.Idx → EReal) (ix2 0 j) = _
  rw [show (W4 m ρ c (Proc.devRef .tc main_v14) : S1x128.Idx → EReal) = _ from v14_of (W3 m ρ c), W3_arg12, row_cast_apply]
  rfl

/-- The three later weight matrices are the arguments as launched. -/
theorem w1 (c : Dev nD) : (V4 m ρ c main_arg5 : S128x128.Idx → EReal) = (m ((c : Thread nD τ).loc main_arg5)) := by
  exact calc W4 m ρ c (Proc.devRef .tc main_arg5)
    _ = W3 m ρ c (Proc.devRef .tc main_arg5) := by unwritten
    _ = W2 m ρ c (Proc.devRef .tc main_arg5) := by unwritten
    _ = W1 m ρ c (Proc.devRef .tc main_arg5) := by unwritten
    _ = W0 m ρ c (Proc.devRef .tc main_arg5) := by unwritten
    _ = m ((c : Thread nD τ).loc main_arg5) := rfl
theorem w2 (c : Dev nD) : (V4 m ρ c main_arg7 : S128x128.Idx → EReal) = (m ((c : Thread nD τ).loc main_arg7)) := by
  exact calc W4 m ρ c (Proc.devRef .tc main_arg7)
    _ = W3 m ρ c (Proc.devRef .tc main_arg7) := by unwritten
    _ = W2 m ρ c (Proc.devRef .tc main_arg7) := by unwritten
    _ = W1 m ρ c (Proc.devRef .tc main_arg7) := by unwritten
    _ = W0 m ρ c (Proc.devRef .tc main_arg7) := by unwritten
    _ = m ((c : Thread nD τ).loc main_arg7) := rfl
theorem w3 (c : Dev nD) : (V4 m ρ c main_arg9 : S128x128.Idx → EReal) = (m ((c : Thread nD τ).loc main_arg9)) := by
  exact calc W4 m ρ c (Proc.devRef .tc main_arg9)
    _ = W3 m ρ c (Proc.devRef .tc main_arg9) := by unwritten
    _ = W2 m ρ c (Proc.devRef .tc main_arg9) := by unwritten
    _ = W1 m ρ c (Proc.devRef .tc main_arg9) := by unwritten
    _ = W0 m ρ c (Proc.devRef .tc main_arg9) := by unwritten
    _ = m ((c : Thread nD τ).loc main_arg9) := rfl

end Cert.GraphNet.EdgeEntry

end
-- ==== Proof.EdgeGather.lean ====
/-
  The two gathered operands of the edge launch, in terms of the memory the program was launched from.

  Before the launch the host takes the senders' and the receivers' node rows with the library's `take`: an index below
  zero is moved up by the node count, a mask marks the rows whose index then lies in 0 … 49999, the rows are gathered,
  and a row the mask leaves out is filled with a not-a-number word. Where every entry of the endpoint table names a
  node (`IndexInRange`) the wrap-around leaves each index where it is, both comparisons hold at every row, the mask
  — an `and` over an axis of length one, started at 1 — is 1 everywhere, no row is filled, and the operand is the
  plain gather at the wrapped indices.
-/
import proofs.«410880_j33672543601340_1_alg».proof.Proof.Gen.KernelIdeal.Frame
import proofs.«410880_j33672543601340_1_alg».proof.Proof.RowSpec
import proofs.«410880_j33672543601340_1_alg».proof.Proof.KernelTerms
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine
import Idealize.ShloMosaic.Lib.StableHlo.Run

noncomputable section

namespace Cert.GraphNet.EdgeEntry

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)
open Cert.GraphNet.KernelTerms

variable (m : (ℓ : Loc nD τ sig) → Buf (Elt Ideal) ℓ) (ρ : Dev nD → PrngReg)

/-- A buffer none of a stretch's operations writes holds after the stretch what it held before. -/
local macro "unwritten" : tactic => `(tactic|
  exact StableHlo.after_of_forall_not_mem _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The two gathers -/

/-- The library take's row mask over a column of start indices: 1 where the index is at least 0 and at most 49999. -/
private def rowsOk (col : IVec S640000x1 32) : IVec S640000 1 :=
  Host.reduce IntOp.andi
    (andi (cmpi .sge col (broadcastInDim S640000x1 ![] bcast_S_S640000x1 (constantI S_ 32 0#32)))
      (cmpi .sle col (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- The library take of node rows at a vector of indices: the gather at the wrapped indices where the mask is 1, a
    not-a-number word elsewhere. -/
private def takeRows (a0 : FVec Ideal S50000x128 .f32) (x : IVec S640000 32) : FVec Ideal S640000x128 .f32 :=
  select (broadcastInDim S640000x128 ![0] bcast_S640000_S640000x128_0 (rowsOk (asColumn (wrapNeg x))))
    (gatherRows a0 (asColumn (wrapNeg x)))
    (broadcastInDim S640000x128 ![] bcast_S_S640000x128 (constant (F := Ideal) S_ .f32 0x7FC00000#32))

/-- A left fold by `and` from 1 over words that are all 1 is 1. -/
private theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

/-- A non-negative index is left where it is by the wrap-around. -/
private theorem wrapNeg_apply (x : IVec S640000 32) (k : S640000.Idx) (h : IntOp.cmpi .sge (x k) 0#32 = 1#1) :
    wrapNeg x k = x k := by
  have h0 : IntOp.cmpi .slt (x k) 0#32 = 0#1 := eq_zero_of_ne_one fun h1 => by
    have a := IntOp.cmpi_slt.1 h1
    have b := IntOp.cmpi_sge.1 h
    omega
  show Scalar.select (IntOp.cmpi .slt (x k) 0#32) _ (x k) = x k
  rw [h0, select_zero]

/-- Where every index names a node the take's mask is 1 at every row: the column's entry is the index itself, at
    least 0 and, being below 50000, at most 49999. -/
private theorem rowsOk_eq_one (x : IVec S640000 32)
    (hx : ∀ i, IntOp.cmpi .sge (x i) 0#32 = 1#1 ∧ IntOp.cmpi .slt (x i) 50000#32 = 1#1) (i : S640000.Idx) :
    rowsOk (asColumn (wrapNeg x)) i = 1#1 := by
  unfold rowsOk
  rw [Host.reduce_eq_foldl]
  refine foldl_andi_ones _ (fun k => ?_) _
  obtain ⟨k', e⟩ : ∃ k', asColumn (wrapNeg x) k = wrapNeg x k' := ⟨_, rfl⟩
  show IntOp.andi (IntOp.cmpi .sge (asColumn (wrapNeg x) k) 0#32) (IntOp.cmpi .sle (asColumn (wrapNeg x) k) 49999#32) = 1#1
  rw [e, wrapNeg_apply x k' (hx k').1]
  refine IntOp.andi_eq_one.2 ⟨(hx k').1, IntOp.cmpi_sle.2 ?_⟩
  have a := IntOp.cmpi_slt.1 (hx k').2
  have e1 : (50000#32 : BitVec 32).toInt = 50000 := by decide
  have e2 : (49999#32 : BitVec 32).toInt = 49999 := by decide
  omega

/-- With every index in range the take is the plain gather at the wrapped indices. -/
private theorem takeRows_of_inRange (a0 : FVec Ideal S50000x128 .f32) (x : IVec S640000 32)
    (hx : ∀ i, IntOp.cmpi .sge (x i) 0#32 = 1#1 ∧ IntOp.cmpi .slt (x i) 50000#32 = 1#1) :
    takeRows a0 x = gatherRows a0 (asColumn (wrapNeg x)) := by
  funext j
  unfold takeRows
  rw [select_apply]
  have hm : broadcastInDim S640000x128 ![0] bcast_S640000_S640000x128_0 (rowsOk (asColumn (wrapNeg x))) j = 1#1 := by
    unfold broadcastInDim
    exact rowsOk_eq_one x hx _
  rw [hm, select_one]

/-- Each entry of an endpoint row is an entry of the table. -/
private theorem sendRaw_inRange (a2 : IVec S2x640000 32) (h : IndexInRange a2) (i : S640000.Idx) :
    IntOp.cmpi .sge (sendRaw a2 i) 0#32 = 1#1 ∧ IntOp.cmpi .slt (sendRaw a2 i) 50000#32 = 1#1 := by
  obtain ⟨k, e⟩ : ∃ k, sendRaw a2 i = a2 k := ⟨_, rfl⟩
  rw [e]; exact h k
private theorem recvRaw_inRange (a2 : IVec S2x640000 32) (h : IndexInRange a2) (i : S640000.Idx) :
    IntOp.cmpi .sge (recvRaw a2 i) 0#32 = 1#1 ∧ IntOp.cmpi .slt (recvRaw a2 i) 50000#32 = 1#1 := by
  obtain ⟨k, e⟩ : ∃ k, recvRaw a2 i = a2 k := ⟨_, rfl⟩
  rw [e]; exact h k

/-- What the first stretch leaves at the two endpoint rows' buffers. -/
private theorem v1_of (V : Valuation τ sig (Elt Ideal)) :
    (StableHlo.after hostOps0 V (Proc.devRef .tc main_v1) : IVec S640000 32)
      = sendRaw (V (Proc.devRef .tc main_arg2) : IVec S2x640000 32) := by
  after_results; rfl
private theorem v3_of (V : Valuation τ sig (Elt Ideal)) :
    (StableHlo.after hostOps0 V (Proc.devRef .tc main_v3) : IVec S640000 32)
      = recvRaw (V (Proc.devRef .tc main_arg2) : IVec S2x640000 32) := by
  after_results; rfl

/-- Contents moved to a buffer's own type and back are the contents. -/
private theorem ofBuf_toBuf {T : BufTy} (x : StableHlo.TRef sig T) (v : T.Contents (Elt Ideal)) : x.ofBuf (x.toBuf v) = v := by
  obtain ⟨r, h, h2, h3⟩ := x
  subst h
  rfl

/-- What each take's stretch leaves at its result's buffer: the take of the node table it was entered with at the
    endpoint row it was entered with. -/
private theorem v4_of (V : Valuation τ sig (Elt Ideal)) :
    (StableHlo.after hostOps0_1 V (Proc.devRef .tc main_v4) : S640000x128.Idx → EReal)
      = takeRows (V (Proc.devRef .tc main_arg0) : S50000x128.Idx → EReal) (V (Proc.devRef .tc main_v1) : IVec S640000 32) := by
  after_results_simp
  simp only [ofBuf_toBuf]
  simp only [StableHlo.TRef.ofBuf, StableHlo.TRef.toBuf, cast_eq]
  rfl
private theorem v5_of (V : Valuation τ sig (Elt Ideal)) :
    (StableHlo.after hostOps0_2 V (Proc.devRef .tc main_v5) : S640000x128.Idx → EReal)
      = takeRows (V (Proc.devRef .tc main_arg0) : S50000x128.Idx → EReal) (V (Proc.devRef .tc main_v3) : IVec S640000 32) := by
  after_results_simp
  simp only [ofBuf_toBuf]
  simp only [StableHlo.TRef.ofBuf, StableHlo.TRef.toBuf, cast_eq]
  rfl

private theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by unwritten
    _ = W0 m ρ c (Proc.devRef .tc main_arg0) := by unwritten
    _ = m ((c : Thread nD τ).loc main_arg0) := rfl
private theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by unwritten
    _ = m ((c : Thread nD τ).loc main_arg0) := rfl

/-- The senders' rows: with every index in range, the plain gather at the wrapped sender indices. -/
theorem senders_rows (c : Dev nD) (h : IndexInRange (m ((c : Thread nD τ).loc main_arg2))) :
    (V4 m ρ c main_v4 : S640000x128.Idx → EReal) = gatherRows (m ((c : Thread nD τ).loc main_arg0)) (asColumn (wrapNeg (sendRaw (m ((c : Thread nD τ).loc main_arg2))))) := by
  have e : (V4 m ρ c main_v4 : S640000x128.Idx → EReal)
      = takeRows (m ((c : Thread nD τ).loc main_arg0)) (sendRaw (m ((c : Thread nD τ).loc main_arg2))) :=
    calc W4 m ρ c (Proc.devRef .tc main_v4)
      _ = W3 m ρ c (Proc.devRef .tc main_v4) := by unwritten
      _ = W2 m ρ c (Proc.devRef .tc main_v4) := by unwritten
      _ = takeRows (W1 m ρ c (Proc.devRef .tc main_arg0)) (W1 m ρ c (Proc.devRef .tc main_v1)) := v4_of (W1 m ρ c)
      _ = takeRows (m ((c : Thread nD τ).loc main_arg0)) (sendRaw (m ((c : Thread nD τ).loc main_arg2))) := by
          rw [W1_arg0, show (W1 m ρ c (Proc.devRef .tc main_v1) : IVec S640000 32) = _ from v1_of (W0 m ρ c)]
  rw [e]
  exact takeRows_of_inRange _ _ (sendRaw_inRange _ h)

/-- The receivers' rows, likewise. -/
theorem receivers_rows (c : Dev nD) (h : IndexInRange (m ((c : Thread nD τ).loc main_arg2))) :
    (V4 m ρ c main_v5 : S640000x128.Idx → EReal) = gatherRows (m ((c : Thread nD τ).loc main_arg0)) (asColumn (wrapNeg (recvRaw (m ((c : Thread nD τ).loc main_arg2))))) := by
  have e : (V4 m ρ c main_v5 : S640000x128.Idx → EReal)
      = takeRows (m ((c : Thread nD τ).loc main_arg0)) (recvRaw (m ((c : Thread nD τ).loc main_arg2))) :=
    calc W4 m ρ c (Proc.devRef .tc main_v5)
      _ = W3 m ρ c (Proc.devRef .tc main_v5) := by unwritten
      _ = takeRows (W2 m ρ c (Proc.devRef .tc main_arg0)) (W2 m ρ c (Proc.devRef .tc main_v3)) := v5_of (W2 m ρ c)
      _ = takeRows (m ((c : Thread nD τ).loc main_arg0)) (W1 m ρ c (Proc.devRef .tc main_v3)) := by
          rw [W2_arg0, show W2 m ρ c (Proc.devRef .tc main_v3) = W1 m ρ c (Proc.devRef .tc main_v3) from by unwritten]
      _ = takeRows (m ((c : Thread nD τ).loc main_arg0)) (recvRaw (m ((c : Thread nD τ).loc main_arg2))) := by
          rw [show (W1 m ρ c (Proc.devRef .tc main_v3) : IVec S640000 32) = _ from v3_of (W0 m ρ c)]
  rw [e]
  exact takeRows_of_inRange _ _ (recvRaw_inRange _ h)

end Cert.GraphNet.EdgeEntry

end
-- ==== Proof.NodeEntry.lean ====
/-
  What the node launch is entered with, and where the program's two computed results end, in terms of the memory
  the program was launched from and of the edge launch's result arrays.

  Between the launches the host sums the updated edges into a zero array at the receivers (a scatter-add), cuts the
  stacked 256×128 first-layer matrix into its two blocks and lays each bias out as a 1×128 row; the node features and
  the later weight matrices are arguments as launched. After the node launch the first result is its output array
  and the third the edge launch's second output, which nothing later writes.
-/
import proofs.«410880_j33672543601340_1_alg».proof.Proof.Gen.KernelIdeal.Frame
import proofs.«410880_j33672543601340_1_alg».proof.Proof.RowSpec
import proofs.«410880_j33672543601340_1_alg».proof.Proof.KernelTerms
import Idealize.ShloMosaic.Lib.ValueIdx
import Idealize.ShloMosaic.Lib.Pipeline.Value
import Idealize.ShloMosaic.PureOps.Ideal.Laws

noncomputable section

namespace Cert.GraphNet.NodeEntry

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)
open Cert.GraphNet.KernelTerms

variable (m : (ℓ : Loc nD τ sig) → Buf (Elt Ideal) ℓ) (ρ : Dev nD → PrngReg)

/-! ## Buffers a stretch of host operations leaves alone

Each host operation writes exactly one buffer, so a buffer that is the result of none of a stretch's operations
holds after the stretch what it held before it. -/

/-- Closes the claim that no operation of a literal stretch writes a literal reference which is the result of none
    of them: the written sets are singletons, and references are compared by name. -/
local macro "stretch_keeps" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments the second host stretch reads, just before it

An argument is written by nothing, so between the two launches it still holds the launch memory. -/

private theorem pre_arg13 (c : Dev nD) :
    (W5 m ρ c (Proc.devRef .tc main_arg13) : S256x128.Idx → EReal) = m ((c : Thread nD τ).loc main_arg13) :=
  calc (W5 m ρ c (Proc.devRef .tc main_arg13) : S256x128.Idx → EReal)
    _ = W6 m ρ c (Proc.devRef .tc main_arg13) :=
        (StableHlo.after_of_forall_not_mem (b := Proc.devRef .tc main_arg13) _ _ (by stretch_keeps hostOps1)).symm
    _ = W7 m ρ c (Proc.devRef .tc main_arg13) := (W7_of_ne m ρ c main_arg13 (by decide)).symm
    _ = m ((c : Thread nD τ).loc main_arg13) := W7_main_arg13 m ρ c

private theorem pre_arg14 (c : Dev nD) :
    (W5 m ρ c (Proc.devRef .tc main_arg14) : S128.Idx → EReal) = m ((c : Thread nD τ).loc main_arg14) :=
  calc (W5 m ρ c (Proc.devRef .tc main_arg14) : S128.Idx → EReal)
    _ = W6 m ρ c (Proc.devRef .tc main_arg14) :=
        (StableHlo.after_of_forall_not_mem (b := Proc.devRef .tc main_arg14) _ _ (by stretch_keeps hostOps1)).symm
    _ = W7 m ρ c (Proc.devRef .tc main_arg14) := (W7_of_ne m ρ c main_arg14 (by decide)).symm
    _ = m ((c : Thread nD τ).loc main_arg14) := W7_main_arg14 m ρ c

private theorem pre_arg16 (c : Dev nD) :
    (W5 m ρ c (Proc.devRef .tc main_arg16) : S128.Idx → EReal) = m ((c : Thread nD τ).loc main_arg16) :=
  calc (W5 m ρ c (Proc.devRef .tc main_arg16) : S128.Idx → EReal)
    _ = W6 m ρ c (Proc.devRef .tc main_arg16) :=
        (StableHlo.after_of_forall_not_mem (b := Proc.devRef .tc main_arg16) _ _ (by stretch_keeps hostOps1)).symm
    _ = W7 m ρ c (Proc.devRef .tc main_arg16) := (W7_of_ne m ρ c main_arg16 (by decide)).symm
    _ = m ((c : Thread nD τ).loc main_arg16) := W7_main_arg16 m ρ c

private theorem pre_arg18 (c : Dev nD) :
    (W5 m ρ c (Proc.devRef .tc main_arg18) : S128.Idx → EReal) = m ((c : Thread nD τ).loc main_arg18) :=
  calc (W5 m ρ c (Proc.devRef .tc main_arg18) : S128.Idx → EReal)
    _ = W6 m ρ c (Proc.devRef .tc main_arg18) :=
        (StableHlo.after_of_forall_not_mem (b := Proc.devRef .tc main_arg18) _ _ (by stretch_keeps hostOps1)).symm
    _ = W7 m ρ c (Proc.devRef .tc main_arg18) := (W7_of_ne m ρ c main_arg18 (by decide)).symm
    _ = m ((c : Thread nD τ).loc main_arg18) := W7_main_arg18 m ρ c

private theorem pre_arg20 (c : Dev nD) :
    (W5 m ρ c (Proc.devRef .tc main_arg20) : S128.Idx → EReal) = m ((c : Thread nD τ).loc main_arg20) :=
  calc (W5 m ρ c (Proc.devRef .tc main_arg20) : S128.Idx → EReal)
    _ = W6 m ρ c (Proc.devRef .tc main_arg20) :=
        (StableHlo.after_of_forall_not_mem (b := Proc.devRef .tc main_arg20) _ _ (by stretch_keeps hostOps1)).symm
    _ = W7 m ρ c (Proc.devRef .tc main_arg20) := (W7_of_ne m ρ c main_arg20 (by decide)).symm
    _ = m ((c : Thread nD τ).loc main_arg20) := W7_main_arg20 m ρ c

private theorem pre_arg21 (c : Dev nD) :
    (W5 m ρ c (Proc.devRef .tc main_arg21) : S128.Idx → EReal) = m ((c : Thread nD τ).loc main_arg21) :=
  calc (W5 m ρ c (Proc.devRef .tc main_arg21) : S128.Idx → EReal)
    _ = W6 m ρ c (Proc.devRef .tc main_arg21) :=
        (StableHlo.after_of_forall_not_mem (b := Proc.devRef .tc main_arg21) _ _ (by stretch_keeps hostOps1)).symm
    _ = W7 m ρ c (Proc.devRef .tc main_arg21) := (W7_of_ne m ρ c main_arg21 (by decide)).symm
    _ = m ((c : Thread nD τ).loc main_arg21) := W7_main_arg21 m ρ c

private theorem pre_arg22 (c : Dev nD) :
    (W5 m ρ c (Proc.devRef .tc main_arg22) : S128.Idx → EReal) = m ((c : Thread nD τ).loc main_arg22) :=
  calc (W5 m ρ c (Proc.devRef .tc main_arg22) : S128.Idx → EReal)
    _ = W6 m ρ c (Proc.devRef .tc main_arg22) :=
        (StableHlo.after_of_forall_not_mem (b := Proc.devRef .tc main_arg22) _ _ (by stretch_keeps hostOps1)).symm
    _ = W7 m ρ c (Proc.devRef .tc main_arg22) := (W7_of_ne m ρ c main_arg22 (by decide)).symm
    _ = m ((c : Thread nD τ).loc main_arg22) := W7_main_arg22 m ρ c

/-- The receivers' row of the endpoint table, cut and flattened by the first host stretch, is still there between the
    launches: no later stretch and no array of the edge launch is that buffer. -/
private theorem pre_recv (c : Dev nD) :
    (W5 m ρ c (Proc.devRef .tc main_v3) : S640000.Idx → BitVec 32) = recvRaw (m ((c : Thread nD τ).loc main_arg2)) :=
  calc (W5 m ρ c (Proc.devRef .tc main_v3) : S640000.Idx → BitVec 32)
    _ = W4 m ρ c (Proc.devRef .tc main_v3) := W5_of_ne m ρ c main_v3 (by decide)
    _ = W3 m ρ c (Proc.devRef .tc main_v3) :=
        StableHlo.after_of_forall_not_mem (b := Proc.devRef .tc main_v3) _ _ (by stretch_keeps hostOps0_3)
    _ = W2 m ρ c (Proc.devRef .tc main_v3) :=
        StableHlo.after_of_forall_not_mem (b := Proc.devRef .tc main_v3) _ _ (by stretch_keeps hostOps0_2)
    _ = W1 m ρ c (Proc.devRef .tc main_v3) :=
        StableHlo.after_of_forall_not_mem (b := Proc.devRef .tc main_v3) _ _ (by stretch_keeps hostOps0_1)
    _ = recvRaw (m ((c : Thread nD τ).loc main_arg2)) := by
        show StableHlo.after hostOps0 (W0 m ρ c) (Proc.devRef .tc main_v3) = _
        after_results
        rfl

/-! ## A flat vector laid out as a one-row matrix, and a block of rows of a taller matrix, read at an index -/

/-- Entry (0, j) of the 1×128 layout of a 128-vector is its entry j: both sit at row-major position j. -/
private theorem row_of_flat (x : S128.Idx → EReal) (j : Fin 128) :
    shapeCast S1x128 x shapeCasts_S128_S1x128 (ix2 0 j) = x (ix1 j) :=
  shapeCast_apply x shapeCasts_S128_S1x128 (ix2 0 j) (ix1 j) (by
    rw [Shape.rowMajor_val_two, Shape.rowMajor_val_one]
    show j.val = 0 * 128 + j.val
    omega)

/-- Entry (k, j) of the 128 rows from row o on of a 256×128 matrix is its entry (o + k, j). -/
private theorem block_of_tall (x : S256x128.Idx → EReal) (o : Nat) (ho : o + 128 ≤ 256)
    (hs : S256x128.Slices ![o, 0] S128x128) (k j : Fin 128) :
    extractStridedSlice S128x128 ![o, 0] x hs (ix2 k j) = x (ix2 ⟨o + k.val, by omega⟩ j) :=
  extractStridedSlice_apply ![o, 0] x hs (ix2 k j) (ix2 ⟨o + k.val, by omega⟩ j) fun a =>
    match a with
    | ⟨0, _⟩ => by show o + k.val = o + k.val; rfl
    | ⟨1, _⟩ => by show j.val = 0 + j.val; omega

/-- A 1×128 array that is the 1×128 layout of a 128-vector reads, as a row, that vector: the shape of every bias,
    gain and offset row of the node launch. -/
private theorem vec_row (x : S1x128.Idx → EReal) (a : S128.Idx → EReal)
    (e : x = shapeCast S1x128 a shapeCasts_S128_S1x128) : vecOf x = vec1Of a := by
  funext j
  show x (ix2 0 j) = a (ix1 j)
  rw [e]
  exact row_of_flat a j

/-- The node features are the argument as launched. -/
theorem nodes_rows (c : Dev nD) : (V6 m ρ c main_arg0 : S50000x128.Idx → EReal) = (m ((c : Thread nD τ).loc main_arg0)) :=
  ((W7_arr m ρ c 0).trans (((dat1 (V6 m ρ) c).arrAt_in 0 rfl _).trans (A_eq1 (V6 m ρ) c 0))).symm.trans
    (W7_main_arg0 m ρ c)

/-- The aggregated edges: the edge launch's first result summed into zeros at the receivers. -/
theorem agg_rows (c : Dev nD) :
    (V6 m ρ c main_v18 : S50000x128.Idx → EReal)
      = aggregate (asColumn (recvRaw (m ((c : Thread nD τ).loc main_arg2)))) ((dat0 (F := Ideal) (V4 m ρ) c).arrAt 15 cfg0.N) := by
  have e : (V6 m ρ c main_v18 : S50000x128.Idx → EReal)
      = aggregate (asColumn (W5 m ρ c (Proc.devRef .tc main_v3) : S640000.Idx → BitVec 32))
          (W5 m ρ c (Proc.devRef .tc main_v15_0) : S640000x128.Idx → EReal) := by
    show StableHlo.after hostOps1 (W5 m ρ c) (Proc.devRef .tc main_v18) = _
    after_results
    rfl
  have e15 : (W5 m ρ c (Proc.devRef .tc main_v15_0) : S640000x128.Idx → EReal)
      = (dat0 (F := Ideal) (V4 m ρ) c).arrAt 15 cfg0.N := W5_arr m ρ c 15
  rw [e, pre_recv m ρ c, e15]

/-- The two blocks of the stacked first-layer matrix. -/
theorem w0_nodes (c : Dev nD) : matOf (V6 m ρ c main_v19) = matBlock (r := 256) (m ((c : Thread nD τ).loc main_arg13)) 0 (by omega) := by
  have e : (V6 m ρ c main_v19 : S128x128.Idx → EReal)
      = extractStridedSlice S128x128 ![0, 0] (W5 m ρ c (Proc.devRef .tc main_arg13) : S256x128.Idx → EReal)
          slices_S256x128_S128x128_0_0 := by
    show StableHlo.after hostOps1 (W5 m ρ c) (Proc.devRef .tc main_v19) = _
    after_results
  funext k j
  show (V6 m ρ c main_v19 : S128x128.Idx → EReal) (ix2 k j) = m ((c : Thread nD τ).loc main_arg13) (ix2 ⟨0 + k.val, by omega⟩ j)
  rw [e, pre_arg13 m ρ c]
  exact block_of_tall _ 0 (by omega) slices_S256x128_S128x128_0_0 k j
theorem w0_agg (c : Dev nD) : matOf (V6 m ρ c main_v20) = matBlock (r := 256) (m ((c : Thread nD τ).loc main_arg13)) 128 (by omega) := by
  have e : (V6 m ρ c main_v20 : S128x128.Idx → EReal)
      = extractStridedSlice S128x128 ![128, 0] (W5 m ρ c (Proc.devRef .tc main_arg13) : S256x128.Idx → EReal)
          slices_S256x128_S128x128_128_0 := by
    show StableHlo.after hostOps1 (W5 m ρ c) (Proc.devRef .tc main_v20) = _
    after_results
  funext k j
  show (V6 m ρ c main_v20 : S128x128.Idx → EReal) (ix2 k j) = m ((c : Thread nD τ).loc main_arg13) (ix2 ⟨128 + k.val, by omega⟩ j)
  rw [e, pre_arg13 m ρ c]
  exact block_of_tall _ 128 (by omega) slices_S256x128_S128x128_128_0 k j

/-- The biases, gain and offset laid out as 1×128 rows. -/
theorem b0 (c : Dev nD) : vecOf (V6 m ρ c main_v21) = vec1Of (m ((c : Thread nD τ).loc main_arg14)) :=
  vec_row (V6 m ρ c main_v21) (m ((c : Thread nD τ).loc main_arg14)) (by
    rw [← pre_arg14 m ρ c]
    show StableHlo.after hostOps1 (W5 m ρ c) (Proc.devRef .tc main_v21) = _
    after_results
    rfl)
theorem b1 (c : Dev nD) : vecOf (V6 m ρ c main_v22) = vec1Of (m ((c : Thread nD τ).loc main_arg16)) :=
  vec_row (V6 m ρ c main_v22) (m ((c : Thread nD τ).loc main_arg16)) (by
    rw [← pre_arg16 m ρ c]
    show StableHlo.after hostOps1 (W5 m ρ c) (Proc.devRef .tc main_v22) = _
    after_results
    rfl)
theorem b2 (c : Dev nD) : vecOf (V6 m ρ c main_v23) = vec1Of (m ((c : Thread nD τ).loc main_arg18)) :=
  vec_row (V6 m ρ c main_v23) (m ((c : Thread nD τ).loc main_arg18)) (by
    rw [← pre_arg18 m ρ c]
    show StableHlo.after hostOps1 (W5 m ρ c) (Proc.devRef .tc main_v23) = _
    after_results
    rfl)
theorem b3 (c : Dev nD) : vecOf (V6 m ρ c main_v24) = vec1Of (m ((c : Thread nD τ).loc main_arg20)) :=
  vec_row (V6 m ρ c main_v24) (m ((c : Thread nD τ).loc main_arg20)) (by
    rw [← pre_arg20 m ρ c]
    show StableHlo.after hostOps1 (W5 m ρ c) (Proc.devRef .tc main_v24) = _
    after_results
    rfl)
theorem gain (c : Dev nD) : vecOf (V6 m ρ c main_v25) = vec1Of (m ((c : Thread nD τ).loc main_arg21)) :=
  vec_row (V6 m ρ c main_v25) (m ((c : Thread nD τ).loc main_arg21)) (by
    rw [← pre_arg21 m ρ c]
    show StableHlo.after hostOps1 (W5 m ρ c) (Proc.devRef .tc main_v25) = _
    after_results
    rfl)
theorem offset (c : Dev nD) : vecOf (V6 m ρ c main_v26) = vec1Of (m ((c : Thread nD τ).loc main_arg22)) :=
  vec_row (V6 m ρ c main_v26) (m ((c : Thread nD τ).loc main_arg22)) (by
    rw [← pre_arg22 m ρ c]
    show StableHlo.after hostOps1 (W5 m ρ c) (Proc.devRef .tc main_v26) = _
    after_results
    rfl)

/-- The three later weight matrices are the arguments as launched. -/
theorem w1 (c : Dev nD) : (V6 m ρ c main_arg15 : S128x128.Idx → EReal) = (m ((c : Thread nD τ).loc main_arg15)) :=
  ((W7_arr m ρ c 5).trans (((dat1 (V6 m ρ) c).arrAt_in 5 rfl _).trans (A_eq1 (V6 m ρ) c 5))).symm.trans
    (W7_main_arg15 m ρ c)
theorem w2 (c : Dev nD) : (V6 m ρ c main_arg17 : S128x128.Idx → EReal) = (m ((c : Thread nD τ).loc main_arg17)) :=
  ((W7_arr m ρ c 7).trans (((dat1 (V6 m ρ) c).arrAt_in 7 rfl _).trans (A_eq1 (V6 m ρ) c 7))).symm.trans
    (W7_main_arg17 m ρ c)
theorem w3 (c : Dev nD) : (V6 m ρ c main_arg19 : S128x128.Idx → EReal) = (m ((c : Thread nD τ).loc main_arg19)) :=
  ((W7_arr m ρ c 9).trans (((dat1 (V6 m ρ) c).arrAt_in 9 rfl _).trans (A_eq1 (V6 m ρ) c 9))).symm.trans
    (W7_main_arg19 m ρ c)

/-- The program's first result ends at the node launch's output array. -/
theorem result_nodes (c : Dev nD) :
    (W7 m ρ c (Proc.devRef .tc main_v27) : S50000x128.Idx → EReal) = (dat1 (F := Ideal) (V6 m ρ) c).arrAt 13 cfg1.N :=
  W7_arr m ρ c 13

/-- The program's third result ends at the edge launch's second output array. -/
theorem result_edges (c : Dev nD) :
    (W7 m ρ c (Proc.devRef .tc main_v15_1) : S640000x128.Idx → EReal) = (dat0 (F := Ideal) (V4 m ρ) c).arrAt 16 cfg0.N :=
  calc (W7 m ρ c (Proc.devRef .tc main_v15_1) : S640000x128.Idx → EReal)
    _ = W6 m ρ c (Proc.devRef .tc main_v15_1) := W7_of_ne m ρ c main_v15_1 (by decide)
    _ = W5 m ρ c (Proc.devRef .tc main_v15_1) :=
        StableHlo.after_of_forall_not_mem (b := Proc.devRef .tc main_v15_1) _ _ (by stretch_keeps hostOps1)
    _ = (dat0 (F := Ideal) (V4 m ρ) c).arrAt 16 cfg0.N := W5_arr m ρ c 16

end Cert.GraphNet.NodeEntry

end
-- ==== Proof.RefEdge.lean ====
/-
  The reference's edge half, entry by entry.

  The reference concatenates the gathered sender rows, the gathered receiver rows and the edge rows into one row of 384
  features and multiplies it by the stacked 384×128 matrix; that product is the sum of the three 128-wide products
  (`sum_three_blocks`). The rest of its perceptron and its layer normalisation are the row functions of the
  specification, each host reduction its initial word 0 plus the row's sum. So row `p` of the updated edges is
  `edgeUpdate` of row `p` of the two gathers and of the edge features, and the third result is the edge's row plus it.
-/
import proofs.«410880_j33672543601340_1_alg».proof.Proof.Gen.ReferenceIdeal.Read
import proofs.«410880_j33672543601340_1_alg».proof.Proof.RowSpec
import Idealize.ShloMosaic.Lib.ValueIdx
import Idealize.ShloMosaic.Lib.Pipeline.Value
import Idealize.ShloMosaic.PureOps.Ideal.Laws

noncomputable section

namespace Cert.GraphNet.RefEdge

open Cert.ReferenceIdeal Cert.ReferenceIdeal.Gen Cert.ReferenceIdeal.Read Cert.GraphNet
open Idealize.ShloMosaic Idealize.ShloMosaic.TcCoe Idealize.ShloMosaic.ValueIdx Idealize.SL.Sem

variable (x0 : (⟨S50000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal))

/-- The updated features of edge `p` in the reference, from its gathered rows and its arguments. -/
def updRow (p : Fin 640000) : Row :=
  edgeUpdate (rowOf (n := 640000) (val_main_v10 (F := Ideal) x0 x2) p) (rowOf (n := 640000) (val_main_v17 (F := Ideal) x0 x2) p) (rowOf (n := 640000) x1 p)
    (matBlock (r := 384) x3 0 (by omega)) (matBlock (r := 384) x3 128 (by omega)) (matBlock (r := 384) x3 256 (by omega)) (vec1Of x4)
    (matOf x5) (vec1Of x6) (matOf x7) (vec1Of x8) (matOf x9) (vec1Of x10) (vec1Of x11) (vec1Of x12)

/-! ## The concatenated row, block by block -/

/-- The concatenated row at a column of its first block is the gathered sender row. -/
private theorem cat_s (p : Fin 640000) (c : Fin 384) (k : Fin 128) (h : c.val = k.val) :
    val_main_v18 (F := Ideal) x0 x1 x2 (ix2 p c) = (val_main_v10 (F := Ideal) x0 x2) (ix2 p k) := by
  unfold val_main_v18
  refine concatenate_apply_piece (1 : Fin S640000x384.rank) _ _ (ix2 p c) 0 (by show (0 : Nat) < 3; omega) S640000x128 (val_main_v10 (F := Ideal) x0 x2) rfl rfl 0 rfl (ix2 p k) (fun b hb => ?_) ?_
  · match b with
    | ⟨0, _⟩ => rfl
    | ⟨1, _⟩ => exact absurd rfl hb
  · show 0 + k.val = c.val
    omega

/-- At a column of its second block it is the gathered receiver row. -/
private theorem cat_r (p : Fin 640000) (c : Fin 384) (k : Fin 128) (h : c.val = 128 + k.val) :
    val_main_v18 (F := Ideal) x0 x1 x2 (ix2 p c) = (val_main_v17 (F := Ideal) x0 x2) (ix2 p k) := by
  unfold val_main_v18
  refine concatenate_apply_piece (1 : Fin S640000x384.rank) _ _ (ix2 p c) 1 (by show (1 : Nat) < 3; omega) S640000x128 (val_main_v17 (F := Ideal) x0 x2) rfl rfl 128 rfl (ix2 p k) (fun b hb => ?_) ?_
  · match b with
    | ⟨0, _⟩ => rfl
    | ⟨1, _⟩ => exact absurd rfl hb
  · show 128 + k.val = c.val
    omega

/-- At a column of its third block it is the edge's own row. -/
private theorem cat_e (p : Fin 640000) (c : Fin 384) (k : Fin 128) (h : c.val = 256 + k.val) :
    val_main_v18 (F := Ideal) x0 x1 x2 (ix2 p c) = x1 (ix2 p k) := by
  unfold val_main_v18
  refine concatenate_apply_piece (1 : Fin S640000x384.rank) _ _ (ix2 p c) 2 (by show (2 : Nat) < 3; omega) S640000x128 x1 rfl rfl 256 rfl (ix2 p k) (fun b hb => ?_) ?_
  · match b with
    | ⟨0, _⟩ => rfl
    | ⟨1, _⟩ => exact absurd rfl hb
  · show 256 + k.val = c.val
    omega

/-- The product of the concatenated row with the stacked matrix is the sum of the three blocks' products. -/
private theorem v19_at (p : Fin 640000) (q : Fin 128) :
    val_main_v19 (F := Ideal) x0 x1 x2 x3 (ix2 p q)
      = (vecMat (rowOf (n := 640000) (val_main_v10 (F := Ideal) x0 x2) p) (matBlock (r := 384) x3 0 (by omega)) q + vecMat (rowOf (n := 640000) (val_main_v17 (F := Ideal) x0 x2) p) (matBlock (r := 384) x3 128 (by omega)) q) + vecMat (rowOf (n := 640000) x1 p) (matBlock (r := 384) x3 256 (by omega)) q := by
  rw [val_main_v19_apply, sum_three_blocks]
  unfold vecMat rowOf matBlock
  refine congrArg₂ (· + ·) (congrArg₂ (· + ·) (Finset.sum_congr rfl fun k _ => ?_) (Finset.sum_congr rfl fun k _ => ?_)) (Finset.sum_congr rfl fun k _ => ?_)
  · rw [show lidx_main_v19 (ix2 p q) ⟨k.val, by omega⟩ = ix2 p ⟨k.val, by omega⟩ from (funext fun a => Fin.ext (by match a with | ⟨0, _⟩ => rfl | ⟨1, _⟩ => rfl)),
      cat_s x0 x1 x2 p ⟨k.val, by omega⟩ k rfl]
    exact congrArg _ (congrArg x3 (funext fun a => Fin.ext (by
      match a with
      | ⟨0, _⟩ => show k.val = 0 + k.val; omega
      | ⟨1, _⟩ => rfl)))
  · rw [show lidx_main_v19 (ix2 p q) ⟨128 + k.val, by omega⟩ = ix2 p ⟨128 + k.val, by omega⟩ from (funext fun a => Fin.ext (by match a with | ⟨0, _⟩ => rfl | ⟨1, _⟩ => rfl)),
      cat_r x0 x1 x2 p ⟨128 + k.val, by omega⟩ k rfl]
    exact congrArg _ (congrArg x3 (funext fun a => Fin.ext (by match a with | ⟨0, _⟩ => rfl | ⟨1, _⟩ => rfl)))
  · rw [show lidx_main_v19 (ix2 p q) ⟨256 + k.val, by omega⟩ = ix2 p ⟨256 + k.val, by omega⟩ from (funext fun a => Fin.ext (by match a with | ⟨0, _⟩ => rfl | ⟨1, _⟩ => rfl)),
      cat_e x0 x1 x2 p ⟨256 + k.val, by omega⟩ k rfl]
    exact congrArg _ (congrArg x3 (funext fun a => Fin.ext (by match a with | ⟨0, _⟩ => rfl | ⟨1, _⟩ => rfl)))

/-! ## The perceptron's rows -/

/-- The first layer's pre-activation of edge `p`. -/
private def h0Row (p : Fin 640000) : Row := fun j =>
  ((vecMat (rowOf (n := 640000) (val_main_v10 (F := Ideal) x0 x2) p) (matBlock (r := 384) x3 0 (by omega)) j + vecMat (rowOf (n := 640000) (val_main_v17 (F := Ideal) x0 x2) p) (matBlock (r := 384) x3 128 (by omega)) j) + vecMat (rowOf (n := 640000) x1 p) (matBlock (r := 384) x3 256 (by omega)) j) + vec1Of x4 j
/-- The second layer's pre-activation. -/
private def h1Row (p : Fin 640000) : Row := dense (relu (h0Row x0 x1 x2 x3 x4 p)) (matOf x5) (vec1Of x6)
/-- The third layer's pre-activation. -/
private def h2Row (p : Fin 640000) : Row := dense (relu (h1Row x0 x1 x2 x3 x4 x5 x6 p)) (matOf x7) (vec1Of x8)
/-- The last layer's output, before the normalisation. -/
private def h3Row (p : Fin 640000) : Row := dense (relu (h2Row x0 x1 x2 x3 x4 x5 x6 x7 x8 p)) (matOf x9) (vec1Of x10)

/-- The broadcast bias at row `p`, feature `q` is the bias vector's entry `q`. -/
private theorem v21_at (p : Fin 640000) (q : Fin 128) :
    val_main_v21 (F := Ideal) x4 (ix2 p q) = vec1Of x4 q := by
  rw [val_main_v21_apply, val_main_v20_apply]
  exact congrArg x4 (funext fun a => Fin.ext (by match a with | ⟨0, _⟩ => rfl))

private theorem v22_at (p : Fin 640000) (q : Fin 128) :
    val_main_v22 (F := Ideal) x0 x1 x2 x3 x4 (ix2 p q) = (h0Row x0 x1 x2 x3 x4 p) q := by
  rw [val_main_v22_apply, v19_at, v21_at]
  rfl

private theorem v23_at (p : Fin 640000) (q : Fin 128) :
    val_main_v23 (F := Ideal) x0 x1 x2 x3 x4 (ix2 p q) = relu (h0Row x0 x1 x2 x3 x4 p) q := by
  rw [val_main_v23_apply, val_main_call0_v0_apply, val_main_call0_cst_apply, v22_at]
  rfl

private theorem v24_at (p : Fin 640000) (q : Fin 128) :
    val_main_v24 (F := Ideal) x0 x1 x2 x3 x4 x5 (ix2 p q) = vecMat (relu (h0Row x0 x1 x2 x3 x4 p)) (matOf x5) q := by
  rw [val_main_v24_apply]
  unfold vecMat matOf
  refine Finset.sum_congr rfl fun k _ => ?_
  rw [show lidx_main_v24 (ix2 p q) k = ix2 p k from (funext fun a => Fin.ext (by match a with | ⟨0, _⟩ => rfl | ⟨1, _⟩ => rfl)), v23_at]
  exact congrArg _ (congrArg x5 (funext fun a => Fin.ext (by match a with | ⟨0, _⟩ => rfl | ⟨1, _⟩ => rfl)))

/-- The broadcast bias at row `p`, feature `q` is the bias vector's entry `q`. -/
private theorem v26_at (p : Fin 640000) (q : Fin 128) :
    val_main_v26 (F := Ideal) x6 (ix2 p q) = vec1Of x6 q := by
  rw [val_main_v26_apply, val_main_v25_apply]
  exact congrArg x6 (funext fun a => Fin.ext (by match a with | ⟨0, _⟩ => rfl))

private theorem v27_at (p : Fin 640000) (q : Fin 128) :
    val_main_v27 (F := Ideal) x0 x1 x2 x3 x4 x5 x6 (ix2 p q) = (h1Row x0 x1 x2 x3 x4 x5 x6 p) q := by
  rw [val_main_v27_apply, v24_at, v26_at]
  rfl

private theorem v28_at (p : Fin 640000) (q : Fin 128) :
    val_main_v28 (F := Ideal) x0 x1 x2 x3 x4 x5 x6 (ix2 p q) = relu (h1Row x0 x1 x2 x3 x4 x5 x6 p) q := by
  rw [val_main_v28_apply, val_main_call1_v0_apply, val_main_call1_cst_apply, v27_at]
  rfl

private theorem v29_at (p : Fin 640000) (q : Fin 128) :
    val_main_v29 (F := Ideal) x0 x1 x2 x3 x4 x5 x6 x7 (ix2 p q) = vecMat (relu (h1Row x0 x1 x2 x3 x4 x5 x6 p)) (matOf x7) q := by
  rw [val_main_v29_apply]
  unfold vecMat matOf
  refine Finset.sum_congr rfl fun k _ => ?_
  rw [show lidx_main_v29 (ix2 p q) k = ix2 p k from (funext fun a => Fin.ext (by match a with | ⟨0, _⟩ => rfl | ⟨1, _⟩ => rfl)), v28_at]
  exact congrArg _ (congrArg x7 (funext fun a => Fin.ext (by match a with | ⟨0, _⟩ => rfl | ⟨1, _⟩ => rfl)))

/-- The broadcast bias at row `p`, feature `q` is the bias vector's entry `q`. -/
private theorem v31_at (p : Fin 640000) (q : Fin 128) :
    val_main_v31 (F := Ideal) x8 (ix2 p q) = vec1Of x8 q := by
  rw [val_main_v31_apply, val_main_v30_apply]
  exact congrArg x8 (funext fun a => Fin.ext (by match a with | ⟨0, _⟩ => rfl))

private theorem v32_at (p : Fin 640000) (q : Fin 128) :
    val_main_v32 (F := Ideal) x0 x1 x2 x3 x4 x5 x6 x7 x8 (ix2 p q) = (h2Row x0 x1 x2 x3 x4 x5 x6 x7 x8 p) q := by
  rw [val_main_v32_apply, v29_at, v31_at]
  rfl

private theorem v33_at (p : Fin 640000) (q : Fin 128) :
    val_main_v33 (F := Ideal) x0 x1 x2 x3 x4 x5 x6 x7 x8 (ix2 p q) = relu (h2Row x0 x1 x2 x3 x4 x5 x6 x7 x8 p) q := by
  rw [val_main_v33_apply, val_main_call2_v0_apply, val_main_call2_cst_apply, v32_at]
  rfl

private theorem v34_at (p : Fin 640000) (q : Fin 128) :
    val_main_v34 (F := Ideal) x0 x1 x2 x3 x4 x5 x6 x7 x8 x9 (ix2 p q) = vecMat (relu (h2Row x0 x1 x2 x3 x4 x5 x6 x7 x8 p)) (matOf x9) q := by
  rw [val_main_v34_apply]
  unfold vecMat matOf
  refine Finset.sum_congr rfl fun k _ => ?_
  rw [show lidx_main_v34 (ix2 p q) k = ix2 p k from (funext fun a => Fin.ext (by match a with | ⟨0, _⟩ => rfl | ⟨1, _⟩ => rfl)), v33_at]
  exact congrArg _ (congrArg x9 (funext fun a => Fin.ext (by match a with | ⟨0, _⟩ => rfl | ⟨1, _⟩ => rfl)))

/-- The broadcast bias at row `p`, feature `q` is the bias vector's entry `q`. -/
private theorem v36_at (p : Fin 640000) (q : Fin 128) :
    val_main_v36 (F := Ideal) x10 (ix2 p q) = vec1Of x10 q := by
  rw [val_main_v36_apply, val_main_v35_apply]
  exact congrArg x10 (funext fun a => Fin.ext (by match a with | ⟨0, _⟩ => rfl))

private theorem v37_at (p : Fin 640000) (q : Fin 128) :
    val_main_v37 (F := Ideal) x0 x1 x2 x3 x4 x5 x6 x7 x8 x9 x10 (ix2 p q) = (h3Row x0 x1 x2 x3 x4 x5 x6 x7 x8 x9 x10 p) q := by
  rw [val_main_v37_apply, v34_at, v36_at]
  rfl

/-! ## The layer normalisation -/

/-- The row's sum: the host reduction's initial word is 0. -/
private theorem v38_at (p : Fin 640000) :
    val_main_v38 (F := Ideal) x0 x1 x2 x3 x4 x5 x6 x7 x8 x9 x10 (ix1 p) = ∑ k : Fin 128, (h3Row x0 x1 x2 x3 x4 x5 x6 x7 x8 x9 x10 p) k := by
  rw [val_main_v38_apply, val_main_cst_apply, Ideal.ofBits_def, Ideal.ofBits_zero_f32, zero_add]
  refine Finset.sum_congr rfl fun k _ => ?_
  rw [show idx_main_v38 (ix1 p) k = ix2 p k from (funext fun a => Fin.ext (by match a with | ⟨0, _⟩ => rfl | ⟨1, _⟩ => rfl)), v37_at]

/-- The row's mean. -/
private theorem v41_at (p : Fin 640000) :
    val_main_v41 (F := Ideal) x0 x1 x2 x3 x4 x5 x6 x7 x8 x9 x10 (ix2 p 0) = rowMean (h3Row x0 x1 x2 x3 x4 x5 x6 x7 x8 x9 x10 p) := by
  rw [val_main_v41_apply, val_main_v39_apply, val_main_v40_apply, val_main_cst_3_apply,
    show idx_main_v39 (ix2 p (0 : Fin 1)) = ix1 p from (funext fun a => Fin.ext (by match a with | ⟨0, _⟩ => rfl)), v38_at]
  rfl

/-- The centred row (first spelling). -/
private theorem v43_at (p : Fin 640000) (q : Fin 128) :
    val_main_v43 (F := Ideal) x0 x1 x2 x3 x4 x5 x6 x7 x8 x9 x10 (ix2 p q) = centred (h3Row x0 x1 x2 x3 x4 x5 x6 x7 x8 x9 x10 p) q := by
  rw [val_main_v43_apply, val_main_v42_apply, v37_at,
    show idx_main_v42 (ix2 p q) = ix2 p (0 : Fin 1) from (funext fun a => Fin.ext (by match a with | ⟨0, _⟩ => rfl | ⟨1, _⟩ => rfl)), v41_at]
  rfl

/-- The centred row (second spelling). -/
private theorem v50_at (p : Fin 640000) (q : Fin 128) :
    val_main_v50 (F := Ideal) x0 x1 x2 x3 x4 x5 x6 x7 x8 x9 x10 (ix2 p q) = centred (h3Row x0 x1 x2 x3 x4 x5 x6 x7 x8 x9 x10 p) q := by
  rw [val_main_v50_apply, val_main_v49_apply, v37_at,
    show idx_main_v49 (ix2 p q) = ix2 p (0 : Fin 1) from (funext fun a => Fin.ext (by match a with | ⟨0, _⟩ => rfl | ⟨1, _⟩ => rfl)), v41_at]
  rfl

/-- The sum of the squared deviations. -/
private theorem v45_at (p : Fin 640000) :
    val_main_v45 (F := Ideal) x0 x1 x2 x3 x4 x5 x6 x7 x8 x9 x10 (ix1 p) = ∑ k : Fin 128, centred (h3Row x0 x1 x2 x3 x4 x5 x6 x7 x8 x9 x10 p) k * centred (h3Row x0 x1 x2 x3 x4 x5 x6 x7 x8 x9 x10 p) k := by
  rw [val_main_v45_apply, val_main_cst_4_apply, Ideal.ofBits_def, Ideal.ofBits_zero_f32, zero_add]
  refine Finset.sum_congr rfl fun k _ => ?_
  rw [show idx_main_v45 (ix1 p) k = ix2 p k from (funext fun a => Fin.ext (by match a with | ⟨0, _⟩ => rfl | ⟨1, _⟩ => rfl)), val_main_v44_apply, v43_at]
  rfl

/-- The reciprocal square root of the variance plus ε. -/
private theorem v53_at (p : Fin 640000) :
    val_main_v53 (F := Ideal) x0 x1 x2 x3 x4 x5 x6 x7 x8 x9 x10 (ix2 p 0)
      = Ideal.rsqrt (rowMean (fun k => centred (h3Row x0 x1 x2 x3 x4 x5 x6 x7 x8 x9 x10 p) k * centred (h3Row x0 x1 x2 x3 x4 x5 x6 x7 x8 x9 x10 p) k) + wEps) := by
  rw [val_main_v53_apply, val_main_v52_apply, val_main_v48_apply, val_main_v46_apply, val_main_v47_apply,
    val_main_cst_5_apply, val_main_v51_apply, val_main_cst_6_apply,
    show idx_main_v46 (ix2 p (0 : Fin 1)) = ix1 p from (funext fun a => Fin.ext (by match a with | ⟨0, _⟩ => rfl)), v45_at]
  rfl

/-- The broadcast bias at row `p`, feature `q` is the bias vector's entry `q`. -/
private theorem v57_at (p : Fin 640000) (q : Fin 128) :
    val_main_v57 (F := Ideal) x11 (ix2 p q) = vec1Of x11 q := by
  rw [val_main_v57_apply, val_main_v56_apply]
  exact congrArg x11 (funext fun a => Fin.ext (by match a with | ⟨0, _⟩ => rfl))

/-- The broadcast bias at row `p`, feature `q` is the bias vector's entry `q`. -/
private theorem v60_at (p : Fin 640000) (q : Fin 128) :
    val_main_v60 (F := Ideal) x12 (ix2 p q) = vec1Of x12 q := by
  rw [val_main_v60_apply, val_main_v59_apply]
  exact congrArg x12 (funext fun a => Fin.ext (by match a with | ⟨0, _⟩ => rfl))

/-- The normalised row. -/
private theorem v61_at (p : Fin 640000) (q : Fin 128) :
    val_main_v61 (F := Ideal) x0 x1 x2 x3 x4 x5 x6 x7 x8 x9 x10 x11 x12 (ix2 p q) = layerNorm (h3Row x0 x1 x2 x3 x4 x5 x6 x7 x8 x9 x10 p) (vec1Of x11) (vec1Of x12) q := by
  rw [val_main_v61_apply, val_main_v58_apply, val_main_v55_apply, val_main_v54_apply, v50_at, v57_at, v60_at,
    show idx_main_v54 (ix2 p q) = ix2 p (0 : Fin 1) from (funext fun a => Fin.ext (by match a with | ⟨0, _⟩ => rfl | ⟨1, _⟩ => rfl)), v53_at]
  rfl

/-- The reference's updated edges at row `p`, feature `q`. -/
theorem upd_apply (p : Fin 640000) (q : Fin 128) :
    val_main_v61 (F := Ideal) x0 x1 x2 x3 x4 x5 x6 x7 x8 x9 x10 x11 x12 (ix2 p q) = updRow x0 x1 x2 x3 x4 x5 x6 x7 x8 x9 x10 x11 x12 p q := by
  rw [v61_at]
  rfl

/-- The reference's third result (edge plus update) at row `p`, feature `q`. -/
theorem out_apply (p : Fin 640000) (q : Fin 128) :
    val_main_v110 (F := Ideal) x0 x1 x2 x3 x4 x5 x6 x7 x8 x9 x10 x11 x12 (ix2 p q) = rowOf (n := 640000) x1 p q + updRow x0 x1 x2 x3 x4 x5 x6 x7 x8 x9 x10 x11 x12 p q := by
  rw [val_main_v110_apply, upd_apply]
  rfl

end Cert.GraphNet.RefEdge

end
-- ==== Proof.RefNode.lean ====
/-
  The reference's node half, entry by entry.

  The reference concatenates the node rows and the aggregated edge rows into one row of 256 features and multiplies it
  by the stacked 256×128 matrix; that product is the sum of the two 128-wide products (`sum_two_blocks`). The rest is
  the specification's perceptron and normalisation, row by row. So row `p` of the first result is the node's row plus
  `nodeUpdate` of that row and of row `p` of the aggregate.
-/
import proofs.«410880_j33672543601340_1_alg».proof.Proof.Gen.ReferenceIdeal.Read
import proofs.«410880_j33672543601340_1_alg».proof.Proof.RowSpec
import Idealize.ShloMosaic.Lib.ValueIdx
import Idealize.ShloMosaic.Lib.Pipeline.Value
import Idealize.ShloMosaic.PureOps.Ideal.Laws

noncomputable section

namespace Cert.GraphNet.RefNode

open Cert.ReferenceIdeal Cert.ReferenceIdeal.Gen Cert.ReferenceIdeal.Read Cert.GraphNet
open Idealize.ShloMosaic Idealize.ShloMosaic.TcCoe Idealize.ShloMosaic.ValueIdx Idealize.SL.Sem

variable (x0 : (⟨S50000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S256x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal))

/-- The updated features of node `p` in the reference, from its aggregate and its arguments. -/
def updRow (p : Fin 50000) : Row :=
  nodeUpdate (rowOf (n := 50000) x0 p) (rowOf (n := 50000) (val_main_v64 (F := Ideal) x0 x1 x2 x3 x4 x5 x6 x7 x8 x9 x10 x11 x12) p)
    (matBlock (r := 256) x13 0 (by omega)) (matBlock (r := 256) x13 128 (by omega)) (vec1Of x14)
    (matOf x15) (vec1Of x16) (matOf x17) (vec1Of x18) (matOf x19) (vec1Of x20) (vec1Of x21) (vec1Of x22)

/-! ## Indices

Every composed index of the generated reading is the index with the evident coordinates; both sides are functions of
the axis, equal axis by axis. -/

local macro "ix_ext" : tactic =>
  `(tactic| exact funext fun a => Fin.ext (by match a with | ⟨0, _⟩ => rfl | ⟨1, _⟩ => rfl))

local macro "ix_ext1" : tactic =>
  `(tactic| exact funext fun a => Fin.ext (by match a with | ⟨0, _⟩ => rfl))

/-! ## The concatenated row

Column `k < 128` of row `p` of the concatenation is the node's feature `k`, column `128 + k` the aggregate's. -/

private theorem cat_left (p : Fin 50000) (k : Fin 128) :
    val_main_v65 (F := Ideal) x0 x1 x2 x3 x4 x5 x6 x7 x8 x9 x10 x11 x12 (ix2 p (⟨k.val, by omega⟩ : Fin 256)) = x0 (ix2 p k) := by
  unfold val_main_v65
  exact concatenate_pair_apply_left (t := S50000x256) (s₁ := S50000x128) (s₂ := S50000x128) 1 x0 _ _
    (ix2 p (⟨k.val, by omega⟩ : Fin 256)) rfl (ix2 p k) (fun b => by
    match b with
    | ⟨0, _⟩ => rfl
    | ⟨1, _⟩ => rfl)

private theorem cat_right (p : Fin 50000) (k : Fin 128) :
    val_main_v65 (F := Ideal) x0 x1 x2 x3 x4 x5 x6 x7 x8 x9 x10 x11 x12 (ix2 p (⟨128 + k.val, by omega⟩ : Fin 256))
      = val_main_v64 (F := Ideal) x0 x1 x2 x3 x4 x5 x6 x7 x8 x9 x10 x11 x12 (ix2 p k) := by
  unfold val_main_v65
  exact concatenate_pair_apply_right (t := S50000x256) (s₁ := S50000x128) (s₂ := S50000x128) 1 x0 _ _
    (ix2 p (⟨128 + k.val, by omega⟩ : Fin 256)) rfl rfl (ix2 p k)
    (fun b hb => by
      match b with
      | ⟨0, _⟩ => rfl
      | ⟨1, _⟩ => exact absurd rfl hb)
    (by show k.val + 128 = 128 + k.val; omega)

/-! ## The rows of the perceptron -/

/-- The first layer's pre-activation of node `p`. -/
private abbrev h0Row (p : Fin 50000) : Row := fun j =>
  (vecMat (rowOf (n := 50000) x0 p) (matBlock (r := 256) x13 0 (by omega)) j
    + vecMat (rowOf (n := 50000) (val_main_v64 (F := Ideal) x0 x1 x2 x3 x4 x5 x6 x7 x8 x9 x10 x11 x12) p) (matBlock (r := 256) x13 128 (by omega)) j) + vec1Of x14 j
/-- The second layer's pre-activation. -/
private abbrev h1Row (p : Fin 50000) : Row := dense (relu (h0Row x0 x1 x2 x3 x4 x5 x6 x7 x8 x9 x10 x11 x12 x13 x14 p)) (matOf x15) (vec1Of x16)
/-- The third layer's pre-activation. -/
private abbrev h2Row (p : Fin 50000) : Row := dense (relu (h1Row x0 x1 x2 x3 x4 x5 x6 x7 x8 x9 x10 x11 x12 x13 x14 x15 x16 p)) (matOf x17) (vec1Of x18)
/-- The last layer's output, before the normalisation. -/
private abbrev h3Row (p : Fin 50000) : Row := dense (relu (h2Row x0 x1 x2 x3 x4 x5 x6 x7 x8 x9 x10 x11 x12 x13 x14 x15 x16 x17 x18 p)) (matOf x19) (vec1Of x20)

/-- A bias vector broadcast down the rows reads the vector at the column. -/
private theorem bias (x : (⟨S128, .f32⟩ : BufTy).Contents (Elt Ideal)) (p : Fin 50000) (q : Fin 128) :
    val_main_v68 (F := Ideal) x (ix2 p q) = vec1Of x q := by
  rw [val_main_v68_apply, val_main_v67_apply]
  exact congrArg x (by ix_ext1)

/-- The rectifier's broadcast zero is the literal's word. -/
private theorem zero3 (i : S50000x128.Idx) : val_main_call3_v0 (F := Ideal) i = wZero := by
  rw [val_main_call3_v0_apply, val_main_call3_cst_apply]; rfl

/-- The product of the concatenated row with the stacked matrix is the sum of the two blocks' products. -/
private theorem v66_row (p : Fin 50000) (q : Fin 128) :
    val_main_v66 (F := Ideal) x0 x1 x2 x3 x4 x5 x6 x7 x8 x9 x10 x11 x12 x13 (ix2 p q)
      = vecMat (rowOf (n := 50000) x0 p) (matBlock (r := 256) x13 0 (by omega)) q
        + vecMat (rowOf (n := 50000) (val_main_v64 (F := Ideal) x0 x1 x2 x3 x4 x5 x6 x7 x8 x9 x10 x11 x12) p) (matBlock (r := 256) x13 128 (by omega)) q := by
  rw [val_main_v66_apply, sum_two_blocks]
  unfold vecMat
  refine congrArg₂ (· + ·) (Finset.sum_congr rfl fun k _ => ?_) (Finset.sum_congr rfl fun k _ => ?_)
  · have e1 : lidx_main_v66 (ix2 p q) ⟨k.val, by omega⟩ = ix2 p (⟨k.val, by omega⟩ : Fin 256) := by ix_ext
    have e2 : ridx_main_v66 (ix2 p q) ⟨k.val, by omega⟩ = ix2 (⟨0 + k.val, by omega⟩ : Fin 256) q :=
      funext fun a => Fin.ext (by
        match a with
        | ⟨0, _⟩ => exact (Nat.zero_add k.val).symm
        | ⟨1, _⟩ => rfl)
    rw [e1, e2, cat_left]; rfl
  · have e1 : lidx_main_v66 (ix2 p q) ⟨128 + k.val, by omega⟩ = ix2 p (⟨128 + k.val, by omega⟩ : Fin 256) := by ix_ext
    have e2 : ridx_main_v66 (ix2 p q) ⟨128 + k.val, by omega⟩ = ix2 (⟨128 + k.val, by omega⟩ : Fin 256) q := by ix_ext
    rw [e1, e2, cat_right]; rfl

private theorem v69_row (p : Fin 50000) (q : Fin 128) :
    val_main_v69 (F := Ideal) x0 x1 x2 x3 x4 x5 x6 x7 x8 x9 x10 x11 x12 x13 x14 (ix2 p q) = h0Row x0 x1 x2 x3 x4 x5 x6 x7 x8 x9 x10 x11 x12 x13 x14 p q := by
  rw [val_main_v69_apply, v66_row, bias]; rfl

private theorem v70_row (p : Fin 50000) (q : Fin 128) :
    val_main_v70 (F := Ideal) x0 x1 x2 x3 x4 x5 x6 x7 x8 x9 x10 x11 x12 x13 x14 (ix2 p q) = relu (h0Row x0 x1 x2 x3 x4 x5 x6 x7 x8 x9 x10 x11 x12 x13 x14 p) q := by
  rw [val_main_v70_apply, v69_row, zero3]; rfl

/-- The rectifier's broadcast zero, second and third call. -/
private theorem zero4 (i : S50000x128.Idx) : val_main_call4_v0 (F := Ideal) i = wZero := by
  rw [val_main_call4_v0_apply, val_main_call4_cst_apply]; rfl

private theorem zero5 (i : S50000x128.Idx) : val_main_call5_v0 (F := Ideal) i = wZero := by
  rw [val_main_call5_v0_apply, val_main_call5_cst_apply]; rfl

private theorem v71_row (p : Fin 50000) (q : Fin 128) :
    val_main_v71 (F := Ideal) x0 x1 x2 x3 x4 x5 x6 x7 x8 x9 x10 x11 x12 x13 x14 x15 (ix2 p q) = vecMat (relu (h0Row x0 x1 x2 x3 x4 x5 x6 x7 x8 x9 x10 x11 x12 x13 x14 p)) (matOf x15) q := by
  rw [val_main_v71_apply]
  unfold vecMat
  refine Finset.sum_congr rfl fun k _ => ?_
  have e1 : lidx_main_v71 (ix2 p q) k = ix2 p k := by ix_ext
  have e2 : ridx_main_v71 (ix2 p q) k = ix2 k q := by ix_ext
  rw [e1, e2, v70_row]; rfl

private theorem v74_row (p : Fin 50000) (q : Fin 128) :
    val_main_v74 (F := Ideal) x0 x1 x2 x3 x4 x5 x6 x7 x8 x9 x10 x11 x12 x13 x14 x15 x16 (ix2 p q) = h1Row x0 x1 x2 x3 x4 x5 x6 x7 x8 x9 x10 x11 x12 x13 x14 x15 x16 p q := by
  rw [val_main_v74_apply, v71_row,
    show val_main_v73 (F := Ideal) x16 (ix2 p q) = vec1Of x16 q from bias x16 p q]; rfl

private theorem v75_row (p : Fin 50000) (q : Fin 128) :
    val_main_v75 (F := Ideal) x0 x1 x2 x3 x4 x5 x6 x7 x8 x9 x10 x11 x12 x13 x14 x15 x16 (ix2 p q) = relu (h1Row x0 x1 x2 x3 x4 x5 x6 x7 x8 x9 x10 x11 x12 x13 x14 x15 x16 p) q := by
  rw [val_main_v75_apply, v74_row, zero4]; rfl

private theorem v76_row (p : Fin 50000) (q : Fin 128) :
    val_main_v76 (F := Ideal) x0 x1 x2 x3 x4 x5 x6 x7 x8 x9 x10 x11 x12 x13 x14 x15 x16 x17 (ix2 p q) = vecMat (relu (h1Row x0 x1 x2 x3 x4 x5 x6 x7 x8 x9 x10 x11 x12 x13 x14 x15 x16 p)) (matOf x17) q := by
  rw [val_main_v76_apply]
  unfold vecMat
  refine Finset.sum_congr rfl fun k _ => ?_
  have e1 : lidx_main_v76 (ix2 p q) k = ix2 p k := by ix_ext
  have e2 : ridx_main_v76 (ix2 p q) k = ix2 k q := by ix_ext
  rw [e1, e2, v75_row]; rfl

private theorem v79_row (p : Fin 50000) (q : Fin 128) :
    val_main_v79 (F := Ideal) x0 x1 x2 x3 x4 x5 x6 x7 x8 x9 x10 x11 x12 x13 x14 x15 x16 x17 x18 (ix2 p q) = h2Row x0 x1 x2 x3 x4 x5 x6 x7 x8 x9 x10 x11 x12 x13 x14 x15 x16 x17 x18 p q := by
  rw [val_main_v79_apply, v76_row,
    show val_main_v78 (F := Ideal) x18 (ix2 p q) = vec1Of x18 q from bias x18 p q]; rfl

private theorem v80_row (p : Fin 50000) (q : Fin 128) :
    val_main_v80 (F := Ideal) x0 x1 x2 x3 x4 x5 x6 x7 x8 x9 x10 x11 x12 x13 x14 x15 x16 x17 x18 (ix2 p q) = relu (h2Row x0 x1 x2 x3 x4 x5 x6 x7 x8 x9 x10 x11 x12 x13 x14 x15 x16 x17 x18 p) q := by
  rw [val_main_v80_apply, v79_row, zero5]; rfl

private theorem v81_row (p : Fin 50000) (q : Fin 128) :
    val_main_v81 (F := Ideal) x0 x1 x2 x3 x4 x5 x6 x7 x8 x9 x10 x11 x12 x13 x14 x15 x16 x17 x18 x19 (ix2 p q) = vecMat (relu (h2Row x0 x1 x2 x3 x4 x5 x6 x7 x8 x9 x10 x11 x12 x13 x14 x15 x16 x17 x18 p)) (matOf x19) q := by
  rw [val_main_v81_apply]
  unfold vecMat
  refine Finset.sum_congr rfl fun k _ => ?_
  have e1 : lidx_main_v81 (ix2 p q) k = ix2 p k := by ix_ext
  have e2 : ridx_main_v81 (ix2 p q) k = ix2 k q := by ix_ext
  rw [e1, e2, v80_row]; rfl

private theorem v84_row (p : Fin 50000) (q : Fin 128) :
    val_main_v84 (F := Ideal) x0 x1 x2 x3 x4 x5 x6 x7 x8 x9 x10 x11 x12 x13 x14 x15 x16 x17 x18 x19 x20 (ix2 p q) = h3Row x0 x1 x2 x3 x4 x5 x6 x7 x8 x9 x10 x11 x12 x13 x14 x15 x16 x17 x18 x19 x20 p q := by
  rw [val_main_v84_apply, v81_row,
    show val_main_v83 (F := Ideal) x20 (ix2 p q) = vec1Of x20 q from bias x20 p q]; rfl

/-! ## The normalisation

The host's sum starts from the word of zero, which is zero; the mean is the sum over the word of 128. -/

private theorem v85_row (p : Fin 50000) :
    val_main_v85 (F := Ideal) x0 x1 x2 x3 x4 x5 x6 x7 x8 x9 x10 x11 x12 x13 x14 x15 x16 x17 x18 x19 x20 (ix1 p) = ∑ k : Fin 128, h3Row x0 x1 x2 x3 x4 x5 x6 x7 x8 x9 x10 x11 x12 x13 x14 x15 x16 x17 x18 x19 x20 p k := by
  rw [val_main_v85_apply, val_main_cst_8_apply,
    show FloatOps.ofBits (F := Ideal) .f32 0x00000000#32 = (0 : EReal) from Ideal.ofBits_zero_f32, zero_add]
  refine Finset.sum_congr rfl fun k _ => ?_
  have e : idx_main_v85 (ix1 p) k = ix2 p k := by ix_ext
  rw [e, v84_row]

private theorem v88_row (p : Fin 50000) :
    val_main_v88 (F := Ideal) x0 x1 x2 x3 x4 x5 x6 x7 x8 x9 x10 x11 x12 x13 x14 x15 x16 x17 x18 x19 x20 (ix2 p (0 : Fin 1)) = rowMean (h3Row x0 x1 x2 x3 x4 x5 x6 x7 x8 x9 x10 x11 x12 x13 x14 x15 x16 x17 x18 x19 x20 p) := by
  have e : idx_main_v86 (ix2 p (0 : Fin 1)) = ix1 p := by ix_ext1
  rw [val_main_v88_apply, val_main_v86_apply, val_main_v87_apply, val_main_cst_9_apply, e, v85_row]; rfl

private theorem v90_row (p : Fin 50000) (q : Fin 128) :
    val_main_v90 (F := Ideal) x0 x1 x2 x3 x4 x5 x6 x7 x8 x9 x10 x11 x12 x13 x14 x15 x16 x17 x18 x19 x20 (ix2 p q) = centred (h3Row x0 x1 x2 x3 x4 x5 x6 x7 x8 x9 x10 x11 x12 x13 x14 x15 x16 x17 x18 x19 x20 p) q := by
  have e : idx_main_v89 (ix2 p q) = ix2 p (0 : Fin 1) := by ix_ext
  rw [val_main_v90_apply, val_main_v89_apply, e, v88_row, v84_row]; rfl

private theorem v92_row (p : Fin 50000) :
    val_main_v92 (F := Ideal) x0 x1 x2 x3 x4 x5 x6 x7 x8 x9 x10 x11 x12 x13 x14 x15 x16 x17 x18 x19 x20 (ix1 p) = ∑ k : Fin 128, centred (h3Row x0 x1 x2 x3 x4 x5 x6 x7 x8 x9 x10 x11 x12 x13 x14 x15 x16 x17 x18 x19 x20 p) k * centred (h3Row x0 x1 x2 x3 x4 x5 x6 x7 x8 x9 x10 x11 x12 x13 x14 x15 x16 x17 x18 x19 x20 p) k := by
  rw [val_main_v92_apply, val_main_cst_10_apply,
    show FloatOps.ofBits (F := Ideal) .f32 0x00000000#32 = (0 : EReal) from Ideal.ofBits_zero_f32, zero_add]
  refine Finset.sum_congr rfl fun k _ => ?_
  have e : idx_main_v92 (ix1 p) k = ix2 p k := by ix_ext
  rw [e, val_main_v91_apply, v90_row]; rfl

private theorem v100_row (p : Fin 50000) :
    val_main_v100 (F := Ideal) x0 x1 x2 x3 x4 x5 x6 x7 x8 x9 x10 x11 x12 x13 x14 x15 x16 x17 x18 x19 x20 (ix2 p (0 : Fin 1)) = Ideal.rsqrt ((rowMean fun k => centred (h3Row x0 x1 x2 x3 x4 x5 x6 x7 x8 x9 x10 x11 x12 x13 x14 x15 x16 x17 x18 x19 x20 p) k * centred (h3Row x0 x1 x2 x3 x4 x5 x6 x7 x8 x9 x10 x11 x12 x13 x14 x15 x16 x17 x18 x19 x20 p) k) + wEps) := by
  have e : idx_main_v93 (ix2 p (0 : Fin 1)) = ix1 p := by ix_ext1
  rw [val_main_v100_apply, val_main_v99_apply, val_main_v95_apply, val_main_v93_apply, val_main_v94_apply,
    val_main_cst_11_apply, val_main_v98_apply, val_main_cst_12_apply, e, v92_row]; rfl

private theorem v97_row (p : Fin 50000) (q : Fin 128) :
    val_main_v97 (F := Ideal) x0 x1 x2 x3 x4 x5 x6 x7 x8 x9 x10 x11 x12 x13 x14 x15 x16 x17 x18 x19 x20 (ix2 p q) = centred (h3Row x0 x1 x2 x3 x4 x5 x6 x7 x8 x9 x10 x11 x12 x13 x14 x15 x16 x17 x18 x19 x20 p) q := by
  have e : idx_main_v96 (ix2 p q) = ix2 p (0 : Fin 1) := by ix_ext
  rw [val_main_v97_apply, val_main_v96_apply, e, v88_row, v84_row]; rfl

private theorem v108_row (p : Fin 50000) (q : Fin 128) :
    val_main_v108 (F := Ideal) x0 x1 x2 x3 x4 x5 x6 x7 x8 x9 x10 x11 x12 x13 x14 x15 x16 x17 x18 x19 x20 x21 x22 (ix2 p q) = layerNorm (h3Row x0 x1 x2 x3 x4 x5 x6 x7 x8 x9 x10 x11 x12 x13 x14 x15 x16 x17 x18 x19 x20 p) (vec1Of x21) (vec1Of x22) q := by
  have e : idx_main_v101 (ix2 p q) = ix2 p (0 : Fin 1) := by ix_ext
  rw [val_main_v108_apply, val_main_v105_apply, val_main_v102_apply, v97_row, val_main_v101_apply, e, v100_row,
    show val_main_v104 (F := Ideal) x21 (ix2 p q) = vec1Of x21 q from bias x21 p q,
    show val_main_v107 (F := Ideal) x22 (ix2 p q) = vec1Of x22 q from bias x22 p q]; rfl

/-- The reference's first result (node plus update) at row `p`, feature `q`. -/
theorem out_apply (p : Fin 50000) (q : Fin 128) :
    val_main_v109 (F := Ideal) x0 x1 x2 x3 x4 x5 x6 x7 x8 x9 x10 x11 x12 x13 x14 x15 x16 x17 x18 x19 x20 x21 x22 (ix2 p q) = rowOf (n := 50000) x0 p q + updRow x0 x1 x2 x3 x4 x5 x6 x7 x8 x9 x10 x11 x12 x13 x14 x15 x16 x17 x18 x19 x20 x21 x22 p q := by
  rw [val_main_v109_apply, v108_row]; rfl

end Cert.GraphNet.RefNode

end
-- ==== Proof.Bridge.lean ====
/-
  The two programs compute the same three results.

  With every endpoint a node index the kernel program's gathered operands are the reference's gathers (both wrap a
  negative index the same way), so edge by edge the two edge updates are one row function of equal rows
  (`edges_eq`, `edge_result_eq`); the aggregates are one scatter-add of equal edge arrays at the same receivers
  (`aggregate_eq`); and node by node the two node updates are one row function of equal rows (`node_result_eq`).
-/
import proofs.«410880_j33672543601340_1_alg».proof.Proof.EdgeRegion
import proofs.«410880_j33672543601340_1_alg».proof.Proof.NodeRegion
import proofs.«410880_j33672543601340_1_alg».proof.Proof.EdgeEntry
import proofs.«410880_j33672543601340_1_alg».proof.Proof.EdgeGather
import proofs.«410880_j33672543601340_1_alg».proof.Proof.NodeEntry
import proofs.«410880_j33672543601340_1_alg».proof.Proof.RefEdge
import proofs.«410880_j33672543601340_1_alg».proof.Proof.RefNode

noncomputable section

namespace Cert.GraphNet.Bridge

open Cert.GraphNet Cert.GraphNet.KernelTerms
open Idealize.ShloMosaic Idealize.ShloMosaic.TcCoe Idealize.ShloMosaic.ValueIdx Idealize.SL.Sem
open Cert.KernelIdeal.Gen (V4 V6 W7 dat0 dat1)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel program's wrapped sender indices are the reference's. -/
theorem send_idx_eq (a2 : IVec Cert.KernelIdeal.S2x640000 32) :
    asColumn (wrapNeg (sendRaw a2)) = Cert.ReferenceIdeal.Read.val_main_v9 (F := Ideal) a2 := rfl

/-- The kernel program's wrapped receiver indices are the reference's. -/
theorem recv_idx_eq (a2 : IVec Cert.KernelIdeal.S2x640000 32) :
    asColumn (wrapNeg (recvRaw a2)) = Cert.ReferenceIdeal.Read.val_main_v16 (F := Ideal) a2 := rfl

/-- The scatter's receiver indices (not wrapped) are the reference's. -/
theorem scatter_idx_eq (a2 : IVec Cert.KernelIdeal.S2x640000 32) :
    asColumn (recvRaw a2) = Cert.ReferenceIdeal.Read.val_main_v63 (F := Ideal) a2 := rfl

/-- The gathered sender rows are the reference's. -/
theorem send_rows_eq (a0 : FVec Ideal Cert.KernelIdeal.S50000x128 .f32) (a2 : IVec Cert.KernelIdeal.S2x640000 32) :
    gatherRows a0 (asColumn (wrapNeg (sendRaw a2))) = Cert.ReferenceIdeal.Read.val_main_v10 (F := Ideal) a0 a2 := rfl

/-- The gathered receiver rows are the reference's. -/
theorem recv_rows_eq (a0 : FVec Ideal Cert.KernelIdeal.S50000x128 .f32) (a2 : IVec Cert.KernelIdeal.S2x640000 32) :
    gatherRows a0 (asColumn (wrapNeg (recvRaw a2))) = Cert.ReferenceIdeal.Read.val_main_v17 (F := Ideal) a0 a2 := rfl

/-- Edge by edge the kernel program's update is the reference's. -/
theorem edge_row_eq (h : IndexInRange (m ((c.tc : Thread Cert.KernelIdeal.nD Cert.KernelIdeal.τ).loc Cert.KernelIdeal.main_arg2))) (p : Fin 640000) :
    EdgeRegion.updRow (V4 m ρ) c p = RefEdge.updRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) p := by
  unfold EdgeRegion.updRow RefEdge.updRow
  rw [EdgeEntry.senders_rows m ρ c h, EdgeEntry.receivers_rows m ρ c h, EdgeEntry.edges_rows m ρ c,
    EdgeEntry.w0_senders m ρ c, EdgeEntry.w0_receivers m ρ c, EdgeEntry.w0_edges m ρ c, EdgeEntry.b0 m ρ c,
    EdgeEntry.w1 m ρ c, EdgeEntry.b1 m ρ c, EdgeEntry.w2 m ρ c, EdgeEntry.b2 m ρ c, EdgeEntry.w3 m ρ c,
    EdgeEntry.b3 m ρ c, EdgeEntry.gain m ρ c, EdgeEntry.offset m ρ c, send_rows_eq, recv_rows_eq]

/-- The updated edges: the edge launch's first result is the reference's array. -/
theorem edges_eq (h : IndexInRange (m ((c.tc : Thread Cert.KernelIdeal.nD Cert.KernelIdeal.τ).loc Cert.KernelIdeal.main_arg2))) :
    ((dat0 (F := Ideal) (V4 m ρ) c).arrAt 15 Cert.KernelIdeal.cfg0.N : Cert.KernelIdeal.S640000x128.Idx → EReal)
      = Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  funext i
  rw [eq_ix2 i]
  exact (EdgeRegion.upd_apply (V4 m ρ) c (i 0) (i 1)).trans
    ((congrFun (edge_row_eq m ρ c h (i 0)) (i 1)).trans (RefEdge.upd_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (i 0) (i 1)).symm)

/-- The third result: the edge launch's second result is the reference's array. -/
theorem edge_result_eq (h : IndexInRange (m ((c.tc : Thread Cert.KernelIdeal.nD Cert.KernelIdeal.τ).loc Cert.KernelIdeal.main_arg2))) :
    (W7 m ρ c (Proc.devRef .tc Cert.KernelIdeal.main_v15_1) : Cert.KernelIdeal.S640000x128.Idx → EReal)
      = Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  have key : ∀ (p : Fin 640000) (q : Fin 128),
      rowOf (n := 640000) (V4 m ρ c Cert.KernelIdeal.main_arg1) p q + EdgeRegion.updRow (V4 m ρ) c p q
        = rowOf (n := 640000) (m ((c.tc : Thread Cert.KernelIdeal.nD Cert.KernelIdeal.τ).loc Cert.KernelIdeal.main_arg1)) p q + RefEdge.updRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) p q := by
    intro p q
    rw [edge_row_eq m ρ c h p, EdgeEntry.edges_rows m ρ c]
  refine (NodeEntry.result_edges m ρ c).trans ?_
  funext i
  rw [eq_ix2 i]
  exact (EdgeRegion.out_apply (V4 m ρ) c (i 0) (i 1)).trans
    ((key (i 0) (i 1)).trans (RefEdge.out_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (i 0) (i 1)).symm)

/-- The aggregated edges are the reference's. -/
theorem aggregate_eq (h : IndexInRange (m ((c.tc : Thread Cert.KernelIdeal.nD Cert.KernelIdeal.τ).loc Cert.KernelIdeal.main_arg2))) :
    (V6 m ρ c Cert.KernelIdeal.main_v18 : Cert.KernelIdeal.S50000x128.Idx → EReal)
      = Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [NodeEntry.agg_rows m ρ c, edges_eq m ρ c h, scatter_idx_eq]
  rfl

/-- Node by node the kernel program's update is the reference's. -/
theorem node_row_eq (h : IndexInRange (m ((c.tc : Thread Cert.KernelIdeal.nD Cert.KernelIdeal.τ).loc Cert.KernelIdeal.main_arg2))) (p : Fin 50000) :
    NodeRegion.updRow (V6 m ρ) c p = RefNode.updRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) p := by
  unfold NodeRegion.updRow RefNode.updRow
  rw [NodeEntry.nodes_rows m ρ c, aggregate_eq m ρ c h, NodeEntry.w0_nodes m ρ c, NodeEntry.w0_agg m ρ c,
    NodeEntry.b0 m ρ c, NodeEntry.w1 m ρ c, NodeEntry.b1 m ρ c, NodeEntry.w2 m ρ c, NodeEntry.b2 m ρ c,
    NodeEntry.w3 m ρ c, NodeEntry.b3 m ρ c, NodeEntry.gain m ρ c, NodeEntry.offset m ρ c]

/-- The first result: the node launch's result is the reference's array. -/
theorem node_result_eq (h : IndexInRange (m ((c.tc : Thread Cert.KernelIdeal.nD Cert.KernelIdeal.τ).loc Cert.KernelIdeal.main_arg2))) :
    (W7 m ρ c (Proc.devRef .tc Cert.KernelIdeal.main_v27) : Cert.KernelIdeal.S50000x128.Idx → EReal)
      = Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  have key : ∀ (p : Fin 50000) (q : Fin 128),
      rowOf (n := 50000) (V6 m ρ c Cert.KernelIdeal.main_arg0) p q + NodeRegion.updRow (V6 m ρ) c p q
        = rowOf (n := 50000) (m ((c.tc : Thread Cert.KernelIdeal.nD Cert.KernelIdeal.τ).loc Cert.KernelIdeal.main_arg0)) p q + RefNode.updRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) p q := by
    intro p q
    rw [node_row_eq m ρ c h p, NodeEntry.nodes_rows m ρ c]
  refine (NodeEntry.result_nodes m ρ c).trans ?_
  funext i
  rw [eq_ix2 i]
  exact (NodeRegion.out_apply (V6 m ρ) c (i 0) (i 1)).trans
    ((key (i 0) (i 1)).trans (RefNode.out_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (i 0) (i 1)).symm)

end Cert.GraphNet.Bridge

end
-- ==== Proof.lean ====
/-
  The certificate of the graph-network block: the Pallas program (two launches, the edge perceptron and the node
  perceptron, with the gathers and the scatter-add on the host between them) against its jnp reference, over the
  extended reals, for endpoint tables whose every entry is a node index.

  The three frames are the generated ones (the reference's is its generated run with the results dropped). The
  idealization rewrote nothing, so `preserves` is trivial. For `algebraic`: the kernel program's run ends with its
  first and third results at the last boundary's contents (ValueRun), which are the reference's result terms of the
  same arguments (Bridge, under the index range the precondition gives: IndexRange).
-/
import proofs.«410880_j33672543601340_1_alg».proof.Defs
import proofs.«410880_j33672543601340_1_alg».proof.Proof.Gen.Kernel
import proofs.«410880_j33672543601340_1_alg».proof.Proof.Gen.Kernel.Frame
import proofs.«410880_j33672543601340_1_alg».proof.Proof.Gen.KernelIdeal
import proofs.«410880_j33672543601340_1_alg».proof.Proof.Gen.KernelIdeal.Frame
import proofs.«410880_j33672543601340_1_alg».proof.Proof.Gen.ReferenceIdeal
import proofs.«410880_j33672543601340_1_alg».proof.Proof.Gen.Pre_finite_inputs
import proofs.«410880_j33672543601340_1_alg».proof.Proof.Gen.ReferenceIdeal.Run
import proofs.«410880_j33672543601340_1_alg».proof.Proof.Gen.ReferenceIdeal.Read
import proofs.«410880_j33672543601340_1_alg».proof.Proof.ValueRun
import proofs.«410880_j33672543601340_1_alg».proof.Proof.IndexRange
import proofs.«410880_j33672543601340_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs run, the kernel program to the last boundary's contents of its result buffers and the reference to
    its result terms; with the arguments agreeing and every endpoint a node index these are the same arrays. -/
theorem algebraic : Cert.algebraic_KernelIdeal_ReferenceIdeal := by
  intro m ρ m' ρ' hpre hagree
  refine ⟨fun c => Cert.KernelIdeal.Gen.W7 m ρ c (Proc.devRef .tc Cert.KernelIdeal.main_v27),
    fun c => m ((c.tc : Thread Cert.KernelIdeal.nD Cert.KernelIdeal.τ).loc Cert.KernelIdeal.main_arg2),
    fun c => Cert.KernelIdeal.Gen.W7 m ρ c (Proc.devRef .tc Cert.KernelIdeal.main_v15_1),
    Cert.GraphNet.ValueRun.run (F := Ideal) m ρ, ?_⟩
  refine (θ_run Cert.ReferenceIdeal.defs _ _).mono (fun r h c => ?_) (Cert.ReferenceIdeal.Value.run (F := Ideal) m' ρ')
  have hr := Cert.GraphNet.IndexRange.of_pre m hpre c
  obtain ⟨a0, a1, a2, a3, a4, a5, a6, a7, a8, a9, a10, a11, a12, a13, a14, a15, a16, a17, a18, a19, a20, a21, a22⟩ := hagree c
  refine ⟨(h c).1.trans ?_, (h c).2.1.trans a2, (h c).2.2.1.trans ?_, (h c).2.2.2⟩
  · rw [Cert.ReferenceIdeal.Read.val_main_v109_eq, a0, a1, a2, a3, a4, a5, a6, a7, a8, a9, a10, a11, a12, a13, a14, a15, a16, a17, a18, a19, a20, a21, a22]
    exact (Cert.GraphNet.Bridge.node_result_eq m ρ c hr).symm
  · rw [Cert.ReferenceIdeal.Read.val_main_v110_eq, a0, a1, a2, a3, a4, a5, a6, a7, a8, a9, a10, a11, a12]
    exact (Cert.GraphNet.Bridge.edge_result_eq m ρ c hr).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
